-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S4096 : Shape := ⟨1, ![4096]⟩

abbrev nBuf : Space → Nat
  | .hbm => 33
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .bf16⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .bf16⟩
  | .hbm, ⟨15, _⟩ => ⟨S8192x1, .f32⟩
  | .hbm, ⟨16, _⟩ => ⟨S8192, .f32⟩
  | .hbm, ⟨17, _⟩ => ⟨S4096x256, .bf16⟩
  | .hbm, ⟨18, _⟩ => ⟨S4096x256, .f32⟩
  | .hbm, ⟨19, _⟩ => ⟨S4096x256, .bf16⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond3 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  bcast_S_S8192x256 : S_.BroadcastsInDim S8192x256 (![] : Fin 0 → Fin S8192x256.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v10) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S4096, .i32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i1⟩
  | .hbm, ⟨29, _⟩ => ⟨S8192x8192, .i1⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v23 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  concatenates_S4096_S4096_S8192_d0 : Shape.Concatenates [S4096, S4096] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KernelCases.lean ====
/-
  What each control case of the body leaves behind, as values of the body's own arithmetic.

  The body's three guarded steps are: reset the running column to zero (first column tile only); add the row sums of
  `exp (lhs · rhsᵀ)` over the current column tile; on the diagonal tile subtract that tile's diagonal sum; and on the
  last column tile copy the running column into the output block. So a case leaves in the running column one of
  `add (·)`, `sub (add (·))` applied to the column the point found (or to zero after a reset), and a last-tile case
  leaves the same value in the output block.
-/
import proofs.«412751_j31542239822525_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl

/-- The rows of the resident right factor the body loads at a point: the 1024 rows of the point's column tile. -/
abbrev rhsTile (i : grid0.Coords) (x1 : Vec F S8192x256 .bf16) : Vec F S1024x256 .bf16 :=
  View.ld x1 (Rect.unit (s := S8192x256) (k0_off1 i) S1024x256.size (k0_off1_inb i))

theorem scratch_A (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : cond0_1 i) (hc2 : ¬cond0_2 i)
    (x0 : Vec F S1024x256 .bf16) (x1 : Vec F S8192x256 .bf16) :
    sout0_A_0 c i arg2 harg2 arg3 harg3 arg4 harg4 arg5 harg5 hc0 hc1 hc2 x0 x1 = k0_pay4 x0 (rhsTile i x1) (k0_pay3 x0 (rhsTile i x1) k0_pay1) := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_cons_unit_zero (S := S1024x1) hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem scratch_B (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (hc2 : ¬cond0_2 i)
    (x0 : Vec F S1024x256 .bf16) (x1 : Vec F S8192x256 .bf16) (xs0 : Vec F S1024x1 .f32) :
    sout0_B_0 c i arg2 harg2 arg3 harg3 arg4 harg4 arg5 harg5 hc0 hc1 hc2 x0 x1 xs0 = k0_pay3 x0 (rhsTile i x1) xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem scratch_C (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (hc2 : cond0_2 i)
    (x0 : Vec F S1024x256 .bf16) (x1 : Vec F S8192x256 .bf16) (xs0 : Vec F S1024x1 .f32) :
    sout0_C_0 c i arg2 harg2 arg3 harg3 arg4 harg4 arg5 harg5 hc0 hc1 hc2 x0 x1 xs0 = k0_pay3 x0 (rhsTile i x1) xs0 := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem out_C (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (hc2 : cond0_2 i)
    (x0 : Vec F S1024x256 .bf16) (x1 : Vec F S8192x256 .bf16) (xs0 : Vec F S1024x1 .f32) :
    out0_C_2 c i arg2 harg2 arg3 harg3 arg4 harg4 arg5 harg5 hc0 hc1 hc2 x0 x1 xs0 = k0_pay3 x0 (rhsTile i x1) xs0 := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem scratch_D (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (hc2 : ¬cond0_2 i)
    (x0 : Vec F S1024x256 .bf16) (x1 : Vec F S8192x256 .bf16) :
    sout0_D_0 c i arg2 harg2 arg3 harg3 arg4 harg4 arg5 harg5 hc0 hc1 hc2 x0 x1 = k0_pay3 x0 (rhsTile i x1) k0_pay1 := by
  unfold sout0_D_0
  rw [View.read_writes_eq_canon _ _ _ (scover0_D_0 c i arg2 harg2 arg3 harg3 arg4 harg4 arg5 harg5 hc0 hc1 hc2 x0 x1)]
  unfold kernelRun0_D
  dsimp only
  sl_unfold_words
  rw [View.canon_cons_unit_zero (S := S1024x1) hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem scratch_E (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (hc2 : ¬cond0_2 i)
    (x0 : Vec F S1024x256 .bf16) (x1 : Vec F S8192x256 .bf16) (xs0 : Vec F S1024x1 .f32) :
    sout0_E_0 c i arg2 harg2 arg3 harg3 arg4 harg4 arg5 harg5 hc0 hc1 hc2 x0 x1 xs0 = k0_pay4 x0 (rhsTile i x1) (k0_pay3 x0 (rhsTile i x1) xs0) := by
  unfold sout0_E_0
  rw [View.read_writes_eq_canon _ _ _ (scover0_E_0 c i arg2 harg2 arg3 harg3 arg4 harg4 arg5 harg5 hc0 hc1 hc2 x0 x1 xs0)]
  unfold kernelRun0_E
  dsimp only
  sl_unfold_words
  rw [View.canon_cons_unit_zero (S := S1024x1) hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem scratch_F (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (hc2 : cond0_2 i)
    (x0 : Vec F S1024x256 .bf16) (x1 : Vec F S8192x256 .bf16) (xs0 : Vec F S1024x1 .f32) :
    sout0_F_0 c i arg2 harg2 arg3 harg3 arg4 harg4 arg5 harg5 hc0 hc1 hc2 x0 x1 xs0 = k0_pay4 x0 (rhsTile i x1) (k0_pay3 x0 (rhsTile i x1) xs0) := by
  unfold sout0_F_0
  rw [View.read_writes_eq_canon _ _ _ (scover0_F_0 c i arg2 harg2 arg3 harg3 arg4 harg4 arg5 harg5 hc0 hc1 hc2 x0 x1 xs0)]
  unfold kernelRun0_F
  dsimp only
  sl_unfold_words
  rw [View.canon_cons_unit_zero (S := S1024x1) hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

theorem out_F (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (hc2 : cond0_2 i)
    (x0 : Vec F S1024x256 .bf16) (x1 : Vec F S8192x256 .bf16) (xs0 : Vec F S1024x1 .f32) :
    out0_F_2 c i arg2 harg2 arg3 harg3 arg4 harg4 arg5 harg5 hc0 hc1 hc2 x0 x1 xs0 = k0_pay4 x0 (rhsTile i x1) (k0_pay3 x0 (rhsTile i x1) xs0) := by
  unfold out0_F_2
  rw [View.read_writes_eq_canon _ _ _ (cover0_F_2 c i arg2 harg2 arg3 harg3 arg4 harg4 arg5 harg5 hc0 hc1 hc2 x0 x1 xs0)]
  unfold kernelRun0_F
  dsimp only
  sl_unfold_words
  rw [View.canon_unit_zero hz2]
  simp only [View.readAt_eq_ld, harg2.read_unread, harg3.read_unread, harg4.read_unread, harg5.read_unread, View.ld_unit_zero (S := S1024x256) hz2, View.ld_unit_zero (S := S1024x1) hz2, View.readCov_unit_zero (S := S1024x1) _ hz2, View.readCov_cons_toLoadRect]
  rfl

end Cert.KernelIdeal.Body

end
-- ==== Proof.LossSpec.lean ====
/-
  The mathematics both programs are compared against, over plain index types.

  Rows are indexed by `Fin 8192` (the two batches stacked), features by `Fin 256`. Everything is stated over a matrix
  `E r c` of extended reals — the exponentiated similarity of rows `r` and `c` — and then for the two ways that matrix is
  computed: from a scaled left factor and a right factor (`EK`), and from one normalised array with the temperature
  divided out afterwards (`ER`).

  * The tiled side walks the 8 column tiles of width 1024 of a row in order, adding each tile's row sum to a running
    value, and on the tile that holds the diagonal entry subtracts that tile's diagonal sum again (`accK`, `denK`);
    the positive pair is the entry between row `r mod 4096` and row `4096 + r mod 4096` (`posK`).
  * The direct side sums a row with the diagonal entry replaced by zero (`denR`), and picks the positive pair by a
    mask: equal labels `c mod 4096 = r mod 4096` off the diagonal (`posR`).
  * Each side's per-row term is `log (pos / den)` (`termK`, `termR`).
-/
import Idealize.ShloMosaic.PureOps.Ideal

noncomputable section

namespace Cert.SimLoss

open Idealize.ShloMosaic

/-- Global index of local position `q` inside tile `j` of width 1024. -/
def col (j : Fin 8) (q : Fin 1024) : Fin 8192 :=
  ⟨1024 * j.val + q.val, by have := j.isLt; have := q.isLt; omega⟩

/-- The tile a global index lies in, and its position inside that tile. -/
def tileOf (r : Fin 8192) : Fin 8 := ⟨r.val / 1024, by have := r.isLt; omega⟩
def inTile (r : Fin 8192) : Fin 1024 := ⟨r.val % 1024, Nat.mod_lt _ (by decide)⟩

/-- A row's representative in the first batch, and its partner's in the second. -/
def lo (r : Fin 8192) : Fin 8192 :=
  ⟨r.val % 4096, by have := Nat.mod_lt r.val (show 0 < 4096 by decide); omega⟩
def hi (r : Fin 8192) : Fin 8192 :=
  ⟨4096 + r.val % 4096, by have := Nat.mod_lt r.val (show 0 < 4096 by decide); omega⟩

section Matrix

variable (E : Fin 8192 → Fin 8192 → EReal)

/-- Row `(i, p)`'s sum over column tile `j`. -/
def rowTile (i : Fin 8) (p : Fin 1024) (j : Fin 8) : EReal :=
  ∑ q : Fin 1024, E (col i p) (col j q)

/-- Row `(i, p)`'s sum over column tile `j` with every entry off the tile's local diagonal replaced by zero. -/
def diagTile (i : Fin 8) (p : Fin 1024) (j : Fin 8) : EReal :=
  ∑ q : Fin 1024, if p = q then E (col i p) (col j q) else 0

/-- One column tile's update of the running value of row `(i, p)`: add the tile's row sum, and on the tile with
    `j = i` subtract the tile's diagonal sum from the result. -/
def stepK (i : Fin 8) (p : Fin 1024) (j : Fin 8) (a : EReal) : EReal :=
  if i = j then (a + rowTile E i p j) - diagTile E i p j else a + rowTile E i p j

/-- The running value of row `(i, p)` after the first `n` column tiles, from zero. -/
def accK (i : Fin 8) (p : Fin 1024) : ℕ → EReal
  | 0 => 0
  | n + 1 => if h : n < 8 then stepK E i p ⟨n, h⟩ (accK i p n) else accK i p n

/-- The tiled denominator of row `r`: the running value after all 8 tiles. -/
def denK (r : Fin 8192) : EReal := accK E (tileOf r) (inTile r) 8

/-- The tiled side's positive-pair entry. -/
def posK (r : Fin 8192) : EReal := E (lo r) (hi r)

/-- The direct denominator: the row sum with the diagonal entry replaced by zero. -/
def denR (r : Fin 8192) : EReal := ∑ c : Fin 8192, if r = c then 0 else E r c

/-- The direct side's positive-pair sum: the diagonal-zeroed row masked to equal labels off the diagonal. -/
def posR (r : Fin 8192) : EReal :=
  ∑ c : Fin 8192, if (c.val % 4096 = r.val % 4096 ∧ ¬ r = c) then (if r = c then 0 else E r c) else 0

/-- The two per-row terms. -/
def termK (r : Fin 8192) : EReal := Ideal.log (Ideal.div (posK E r) (denK E r))
def termR (r : Fin 8192) : EReal := Ideal.log (Ideal.div (posR E r) (denR E r))

end Matrix

/-- The two literals: the tiled side multiplies its left factor by `2`, the direct side divides by `1/2`. -/
def two : EReal := Ideal.ofBits .f32 0x40000000#32
def half : EReal := Ideal.ofBits .f32 0x3F000000#32

/-- The matrix from a left factor `L` and a right factor `R`: `exp (∑ₖ L r k · R c k)`. -/
def EK (L R : Fin 8192 → Fin 256 → EReal) (r c : Fin 8192) : EReal :=
  Ideal.exp (∑ k : Fin 256, L r k * R c k)

/-- The matrix from one array with the temperature divided out: `exp ((∑ₖ zn r k · zn c k) / half)`. -/
def ER (zn : Fin 8192 → Fin 256 → EReal) (r c : Fin 8192) : EReal :=
  Ideal.exp (Ideal.div (∑ k : Fin 256, zn r k * zn c k) half)

/-- A row divided by its Euclidean norm, as both programs compute it. -/
def normRow (x : Fin 256 → EReal) (k : Fin 256) : EReal :=
  Ideal.div (x k) (Ideal.sqrt (∑ k' : Fin 256, x k' * x k'))

/-- What a normalised row of finite numbers looks like: real entries not all zero, or — the zero row, whose
    quotients `0 / 0` all take the same conventional value — every entry `⊥`. -/
def RowOk (v : Fin 256 → EReal) : Prop :=
  (∃ x : Fin 256 → ℝ, (∀ k, v k = (x k : EReal)) ∧ ∃ k, x k ≠ 0) ∨ (∀ k, v k = ⊥)

end Cert.SimLoss

end
-- ==== Proof.KernelBlocks.lean ====
/-
  The blocks the body loads, as entries of the arrays the region finds.

  A grid point `t` is row tile `t / 8`, column tile `t mod 8`. The left window's block at `t` is rows
  `1024 (t / 8) + p` of the scaled array; the right window holds the whole array at every point, and the rows the
  body loads from it are `1024 (t mod 8) + q`.
-/
import proofs.«412751_j31542239822525_3_alg».proof.Proof.KernelCases
import proofs.«412751_j31542239822525_3_alg».proof.Proof.LossSpec
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.SimLoss

variable {F : FTy → Type} [FloatOps F]
variable (m : (ℓ : Loc nD τ sig) → Buf (Elt F) ℓ)

/-- A grid point's row tile and column tile. -/
def rowT (t : Fin cfg0.N) : Fin 8 := ⟨t.val / 8, by have := lt_of_lt_of_eq t.isLt (show cfg0.N = 64 from N_0); omega⟩
def colT (t : Fin cfg0.N) : Fin 8 := ⟨t.val % 8, Nat.mod_lt _ (by decide)⟩

/-- The two input blocks at a point, at their literal types. -/
abbrev lhsBlk (c : Dev nD) (t : Fin cfg0.N) : Vec F S1024x256 .bf16 := iblk m c 0 t
abbrev rhsArr (c : Dev nD) (t : Fin cfg0.N) : Vec F S8192x256 .bf16 := iblk m c 1 t

/-- The left window's block index at a point: the point's row tile along the rows, zero along the features. -/
theorem lhs_index : ∀ t : Fin cfg0.N, win0_0.index t (0 : Fin 2) = t.val / 8 ∧ win0_0.index t 1 = 0 :=
  (by decide +kernel : ∀ t : Fin grid0.N, win0_0.index t (0 : Fin 2) = t.val / 8 ∧ win0_0.index t 1 = 0)

/-- The right window's block index is zero on both axes at every point: its one block is the whole array. -/
theorem rhs_index : ∀ t : Fin cfg0.N, win0_1.index t (0 : Fin 2) = 0 ∧ win0_1.index t 1 = 0 :=
  (by decide +kernel : ∀ t : Fin grid0.N, win0_1.index t (0 : Fin 2) = 0 ∧ win0_1.index t 1 = 0)

/-- The first row the body loads from the right array at a point is `1024 (t mod 8)` (the 32-bit product does not
    wrap: the column tile is below 8), and it loads from feature zero. -/
theorem rhs_off : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- Loading 1024 rows of an array from row `1024 j` and feature zero: local row `q` is global row `1024 j + q`
    (unit stride on both axes). -/
theorem rhsTile_apply (x1 : Vec F S8192x256 .bf16) (i : grid0.Coords) (j : Fin 8)
    (h0 : k0_off1 i 0 = 1024 * j.val) (h1 : k0_off1 i 1 = 0) (q : Fin 1024) (k : Fin 256) :
    rhsTile i x1 (ix2 q k) = x1 (ix2 (col j q) k) := by
  show x1 ((Rect.unit (s := S8192x256) (k0_off1 i) S1024x256.size (k0_off1_inb i)).idx (ix2 q k)) = x1 (ix2 (col j q) k)
  congr 1
  funext a
  apply Fin.ext
  match a with
  | ⟨0, _⟩ => show k0_off1 i 0 + 1 * q.val = 1024 * j.val + q.val; omega
  | ⟨1, _⟩ => show k0_off1 i 1 + 1 * k.val = k.val; omega

/-- The right window's block at any point is the whole array: entry for entry what the region finds. -/
theorem rhsArr_apply (c : Dev nD) (t : Fin cfg0.N) (y : S8192x256.Idx) :
    rhsArr m c t y = V m c main_v7 y := by
  unfold rhsArr iblk
  rw [View.read_apply]
  show V m c main_v7 _ = V m c main_v7 y
  congr 1
  funext a
  apply Fin.ext
  match a with
  | ⟨0, _⟩ => show win0_1.index t 0 * 8192 + 1 * (y 0).val = (y 0).val; rw [(rhs_index t).1]; omega
  | ⟨1, _⟩ => show win0_1.index t 1 * 256 + 1 * (y 1).val = (y 1).val; rw [(rhs_index t).2]; omega

theorem lhs_blk (c : Dev nD) (t : Fin cfg0.N) (p : Fin 1024) (k : Fin 256) :
    lhsBlk m c t (ix2 p k) = V m c main_v10 (ix2 (col (rowT t) p) k) := by
  unfold lhsBlk iblk
  rw [View.read_apply]
  show V m c main_v10 _ = V m c main_v10 _
  congr 1
  funext a
  apply Fin.ext
  match a with
  | ⟨0, _⟩ => show win0_0.index t 0 * 1024 + 1 * p.val = 1024 * (t.val / 8) + p.val; rw [(lhs_index t).1]; omega
  | ⟨1, _⟩ => show win0_0.index t 1 * 256 + 1 * k.val = k.val; rw [(lhs_index t).2]; omega

theorem rhs_blk (c : Dev nD) (t : Fin cfg0.N) (q : Fin 1024) (k : Fin 256) :
    rhsTile (grid0.coords t) (rhsArr m c t) (ix2 q k) = V m c main_v7 (ix2 (col (colT t) q) k) :=
  (rhsTile_apply (rhsArr m c t) (grid0.coords t) (colT t) (rhs_off t).1 (rhs_off t).2 q k).trans
    (rhsArr_apply m c t _)

end Cert.KernelIdeal.Body

end
-- ==== Proof.KernelPayload.lean ====
/-
  The body's arithmetic read at a local row, at the ideal values.

  * the reset column is zero;
  * the "add" step's column at local row `p` is the running value there plus the sum over the tile's 1024 columns
    `q` of `exp (∑ₖ lhs (p, k) · rhs (q, k))`: a 1024×256 by 256×1024 product into a zero accumulator (the right
    factor transposed first), exponentiated, summed along the row;
  * the "subtract" step's column at `p` is the running value minus the same row sum with every column `q ≠ p`
    replaced by zero (the select against the mask "row iota = column iota").
-/
import proofs.«412751_j31542239822525_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- `exp` of the inner product of row `p` of the left block with row `q` of the right block. -/
def entry (x0 x1t : Vec Ideal S1024x256 .bf16) (p q : Fin 1024) : EReal :=
  Ideal.exp (∑ k : Fin 256, x0 (ix2 p k) * x1t (ix2 q k))

/-- The reset column: a zero splat, stored through a cast to its own shape. -/
theorem pay1_apply (p : Fin 1024) : (k0_pay1 (F := Ideal)) (ix2 p (0 : Fin 1)) = 0 := by
  unfold k0_pay1
  rw [shapeCast_self]
  exact Ideal.ofBits_zero_f32

/-! The product's operand indices, one coordinate at a time: at output index `i` and contraction index `q` the left
operand is read at (row of `i`, `q`) and the right operand at (`q`, column of `i`). -/

theorem lhs_k0_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_k0_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_k0_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_k0_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The exponentiated product at `(p, q)`: the casts to the operands' own shapes drop out, the product into the zero
accumulator is the sum over the one contraction coordinate `k`, the left factor read at `(p, k)` and the transposed
right factor at `(k, q)`, that is the right block at `(q, k)`. -/
theorem pay2_apply (x0 x1t : Vec Ideal S1024x256 .bf16) (p q : Fin 1024) :
    k0_pay2 (F := Ideal) x0 x1t (ix2 p q) = entry x0 x1t p q := by
  unfold k0_pay2 entry
  rw [shapeCast_self, shapeCast_self]
  change Ideal.exp _ = Ideal.exp _
  refine congrArg Ideal.exp ?_
  refine (Ideal.matmul_constant_zero_apply dot_S1024x256_S256x1024_S1024x1024_1_0_0_1_n_n none _ _ (ix2 p q)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_k0_0 _ _
    | ⟨1, _⟩ => exact (lhs_k0_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_k0_0 _ _).trans hk
    | ⟨1, _⟩ => exact rhs_k0_1 _ _)
  rw [el, er, transpose_ix2_apply]

/-- A row sum stored as a column: the sum along axis 1 of a 1024×1024 array, viewed as `[1024, 1]`, reads at `(p, 0)`
the sum over the columns `q` of the array at `(p, q)`. -/
theorem rowSum_apply (y : FVec Ideal S1024x1024 .f32) (hφ : FKind.Formats .f32)
    (hacc : (0x00000000#32 : BitVec 32) = FKind.add.neutral .f32 hφ) (p : Fin 1024) :
    shapeCast S1024x1 (multiReduction (F := Ideal) .add [1] S1024 y 0x00000000#32 reduces_S1024x1024_S1024 hφ hacc)
        shapeCasts_S1024_S1024x1 (ix2 p (0 : Fin 1))
      = ∑ q : Fin 1024, y (ix2 p q) := by
  refine (shapeCast_apply _ shapeCasts_S1024_S1024x1 (ix2 p (0 : Fin 1)) (ix1 p) ?_).trans ?_
  · rw [Shape.rowMajor_val_one, Shape.rowMajor_val_two]
    show p.val = p.val * 1 + 0
    omega
  refine (Ideal.multiReduction_add_single y _ reduces_S1024x1024_S1024 hφ hacc (ix1 p)).trans ?_
  refine Finset.sum_congr rfl fun q _ => congrArg y ?_
  funext a
  refine Fin.ext ?_
  match a with
  | ⟨0, _⟩ => rfl
  | ⟨1, _⟩ => rfl

theorem pay3_apply (x0 x1t : Vec Ideal S1024x256 .bf16) (acc : Vec Ideal S1024x1 .f32) (p : Fin 1024) :
    k0_pay3 (F := Ideal) x0 x1t acc (ix2 p (0 : Fin 1)) = acc (ix2 p (0 : Fin 1)) + ∑ q : Fin 1024, entry x0 x1t p q := by
  unfold k0_pay3
  rw [shapeCast_self]
  refine (addf_apply _ _ _).trans ?_
  refine congrArg (acc (ix2 p (0 : Fin 1)) + ·) ?_
  refine (rowSum_apply _ _ _ p).trans ?_
  exact Finset.sum_congr rfl fun q _ => pay2_apply x0 x1t p q

/-- Two row and column numbers below 1024, compared as 32-bit words, agree exactly when they are equal; so a select on
that comparison is the `if` on `p = q`. -/
theorem select_diag {α : Type} (p q : Fin 1024) (A B : α) :
    Scalar.select (IntOp.cmpi .eq (BitVec.ofNat 32 p.val) (BitVec.ofNat 32 q.val)) A B = if p = q then A else B := by
  by_cases h : p = q
  · subst h
    rw [if_pos rfl]
    have : IntOp.cmpi .eq (BitVec.ofNat 32 p.val) (BitVec.ofNat 32 p.val) = 1#1 := by
      unfold IntOp.cmpi
      simp
    rw [this, select_one]
  · rw [if_neg h]
    have hne : BitVec.ofNat 32 p.val ≠ BitVec.ofNat 32 q.val := by
      intro e
      have e' := congrArg BitVec.toNat e
      simp only [BitVec.toNat_ofNat] at e'
      have hp := p.isLt
      have hq := q.isLt
      rw [Nat.mod_eq_of_lt (by omega), Nat.mod_eq_of_lt (by omega)] at e'
      exact h (Fin.ext e')
    have hb : (BitVec.ofNat 32 p.val == BitVec.ofNat 32 q.val) = false := by
      rw [beq_eq_false_iff_ne]
      exact hne
    have : IntOp.cmpi .eq (BitVec.ofNat 32 p.val) (BitVec.ofNat 32 q.val) = 0#1 := by
      show BitVec.ofBool (BitVec.ofNat 32 p.val == BitVec.ofNat 32 q.val) = 0#1
      rw [hb]
      rfl
    rw [this, select_zero]

theorem pay4_apply (x0 x1t : Vec Ideal S1024x256 .bf16) (acc : Vec Ideal S1024x1 .f32) (p : Fin 1024) :
    k0_pay4 (F := Ideal) x0 x1t acc (ix2 p (0 : Fin 1))
      = acc (ix2 p (0 : Fin 1)) - ∑ q : Fin 1024, if p = q then entry x0 x1t p q else 0 := by
  unfold k0_pay4
  rw [shapeCast_self]
  refine (subf_apply _ _ _).trans ?_
  refine congrArg (acc (ix2 p (0 : Fin 1)) - ·) ?_
  refine (rowSum_apply _ _ _ p).trans ?_
  refine Finset.sum_congr rfl fun q _ => ?_
  refine (select_apply _ _ _ _).trans ?_
  rw [pay2_apply]
  show Scalar.select (IntOp.cmpi .eq (iota .tc S1024x1024 32 [0] iota_S1024x1024_d0_w32 (ix2 p q))
      (iota .tc S1024x1024 32 [1] iota_S1024x1024_d1_w32 (ix2 p q))) (entry x0 x1t p q) (Ideal.ofBits .f32 0x00000000#32) = _
  rw [iota_single_apply, iota_single_apply, Ideal.ofBits_zero_f32]
  exact select_diag p q _ _

end Cert.KernelIdeal.Body

end
-- ==== Proof.KernelRun.lean ====
/-
  The running column the body carries from point to point is the specification's running value.

  At point `t` (row tile `t / 8`, column tile `t mod 8`) and local row `p`, each entry `exp (lhs-row · rhs-row)` the
  body forms is the matrix entry between global row `1024 (t / 8) + p` and global column `1024 (t mod 8) + q`; so
  the "add" step adds that row's sum over the column tile, the "subtract" step subtracts its diagonal sum, and by
  induction over the points the column after point `t` holds, at `p`, the running value of that row after
  `t mod 8 + 1` column tiles. The diagonal tile is the one with `t mod 9 = 0` (on an 8 × 8 grid `8 i + j` is a multiple
  of 9 exactly when `i = j`).
-/
import proofs.«412751_j31542239822525_3_alg».proof.Proof.KernelCases
import proofs.«412751_j31542239822525_3_alg».proof.Proof.KernelBlocks
import proofs.«412751_j31542239822525_3_alg».proof.Proof.KernelPayload
import proofs.«412751_j31542239822525_3_alg».proof.Proof.LossSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.SimLoss

variable (m : (ℓ : Loc nD τ sig) → Buf (Elt Ideal) ℓ)

/-- The matrix of exponentiated inner products of the two arrays the region finds. -/
def Emat (c : Dev nD) : Fin 8192 → Fin 8192 → EReal :=
  EK (fun r k => V m c main_v10 (ix2 r k)) (fun r k => V m c main_v7 (ix2 r k))

/-- The right-hand rows the body loads at a point. -/
abbrev rhsAt (c : Dev nD) (t : Fin cfg0.N) : Vec Ideal S1024x256 .bf16 := rhsTile (grid0.coords t) (rhsArr m c t)

theorem entry_eq (c : Dev nD) (t : Fin cfg0.N) (p q : Fin 1024) :
    entry (lhsBlk m c t) (rhsAt m c t) p q = Emat m c (col (rowT t) p) (col (colT t) q) := by
  unfold entry Emat EK
  refine congrArg Ideal.exp (Finset.sum_congr rfl fun k _ => ?_)
  exact congrArg₂ (· * ·) (lhs_blk m c t p k) (rhs_blk m c t q k)

theorem rowSum_eq (c : Dev nD) (t : Fin cfg0.N) (p : Fin 1024) :
    (∑ q : Fin 1024, entry (lhsBlk m c t) (rhsAt m c t) p q) = rowTile (Emat m c) (rowT t) p (colT t) :=
  Finset.sum_congr rfl fun q _ => entry_eq m c t p q

theorem diagSum_eq (c : Dev nD) (t : Fin cfg0.N) (p : Fin 1024) :
    (∑ q : Fin 1024, if p = q then entry (lhsBlk m c t) (rhsAt m c t) p q else 0) = diagTile (Emat m c) (rowT t) p (colT t) :=
  Finset.sum_congr rfl fun q _ => by rw [entry_eq m c t p q]

/-- The "add" step at a point, at local row `p`. -/
theorem addStep (c : Dev nD) (t : Fin cfg0.N) (acc : Vec Ideal S1024x1 .f32) (p : Fin 1024) (a : EReal)
    (h : acc (ix2 p (0 : Fin 1)) = a) :
    k0_pay3 (F := Ideal) (lhsBlk m c t) (rhsAt m c t) acc (ix2 p (0 : Fin 1)) = a + rowTile (Emat m c) (rowT t) p (colT t) := by
  refine (pay3_apply (lhsBlk m c t) (rhsAt m c t) acc p).trans ?_
  rw [h, rowSum_eq m c t p]

/-- The "subtract" step at a point, at local row `p`. -/
theorem subStep (c : Dev nD) (t : Fin cfg0.N) (acc : Vec Ideal S1024x1 .f32) (p : Fin 1024) (a : EReal)
    (h : acc (ix2 p (0 : Fin 1)) = a) :
    k0_pay4 (F := Ideal) (lhsBlk m c t) (rhsAt m c t) acc (ix2 p (0 : Fin 1)) = a - diagTile (Emat m c) (rowT t) p (colT t) := by
  refine (pay4_apply (lhsBlk m c t) (rhsAt m c t) acc p).trans ?_
  rw [h, diagSum_eq m c t p]

/-- The specification's running value one tile on. -/
theorem accK_succ (E : Fin 8192 → Fin 8192 → EReal) (i : Fin 8) (p : Fin 1024) (j : ℕ) (hj : j < 8) :
    accK E i p (j + 1) = stepK E i p ⟨j, hj⟩ (accK E i p j) := by
  simp only [accK, dif_pos hj]

/-- The running value after a point's column tile, off the diagonal and on it. -/
theorem accK_off (E : Fin 8192 → Fin 8192 → EReal) (t : Fin cfg0.N) (p : Fin 1024) (h1 : ¬t.val % 9 = 0) :
    accK E (rowT t) p (t.val % 8 + 1) = accK E (rowT t) p (t.val % 8) + rowTile E (rowT t) p (colT t) := by
  have hN : t.val < 64 := lt_of_lt_of_eq t.isLt (show cfg0.N = 64 from N_0)
  rw [accK_succ E (rowT t) p (t.val % 8) (Nat.mod_lt _ (by decide))]
  unfold stepK
  rw [if_neg (fun e => h1 (by have := congrArg Fin.val e; simp only [rowT] at this; omega))]
  rfl

theorem accK_on (E : Fin 8192 → Fin 8192 → EReal) (t : Fin cfg0.N) (p : Fin 1024) (h1 : t.val % 9 = 0) :
    accK E (rowT t) p (t.val % 8 + 1)
      = (accK E (rowT t) p (t.val % 8) + rowTile E (rowT t) p (colT t)) - diagTile E (rowT t) p (colT t) := by
  have hN : t.val < 64 := lt_of_lt_of_eq t.isLt (show cfg0.N = 64 from N_0)
  rw [accK_succ E (rowT t) p (t.val % 8) (Nat.mod_lt _ (by decide))]
  unfold stepK
  rw [if_pos (Fin.ext (by simp only [rowT]; omega))]
  rfl

/-- After point `n` the carried column holds, at local row `p`, the running value of row `(n / 8, p)` after
    `n mod 8 + 1` column tiles. -/
theorem scratch_eq (c : Dev nD) : ∀ (n : ℕ) (h : n < cfg0.N) (p : Fin 1024),
    (outsAt0 m c n h).2 (ix2 p (0 : Fin 1)) = accK (Emat m c) (rowT ⟨n, h⟩) p (n % 8 + 1) := by
  intro n
  induction n using Nat.strong_induction_on with
  | _ n ih =>
    intro h p
    have hN : n < 64 := lt_of_lt_of_eq h (show cfg0.N = 64 from N_0)
    let t : Fin cfg0.N := ⟨n, h⟩
    -- what the point before left, when this point does not reset
    have hprev : ¬n % 8 = 0 → (outsAt0 m c (n - 1) (Nat.lt_of_le_of_lt (Nat.sub_le _ _) h)).2 (ix2 p (0 : Fin 1))
        = accK (Emat m c) (rowT t) p (n % 8) := by
      intro h0
      have e := ih (n - 1) (by omega) (Nat.lt_of_le_of_lt (Nat.sub_le _ _) h) p
      have hr : rowT (⟨n - 1, Nat.lt_of_le_of_lt (Nat.sub_le _ _) h⟩ : Fin cfg0.N) = rowT t := Fin.ext (by simp only [rowT, t]; omega)
      rw [e, hr, show (n - 1) % 8 + 1 = n % 8 by omega]
    have hzero : n % 8 = 0 → accK (Emat m c) (rowT t) p (n % 8) = 0 := fun h0 => by rw [h0]; rfl
    by_cases h0 : n % 8 = 0
    · by_cases h1 : n % 9 = 0
      · have h2 : ¬n % 8 = 7 := by omega
        rw [outsAt0_A m c t h0 h1 h2]
        dsimp only
        refine (congrFun (scratch_A (F := Ideal) c (grid0.coords t) (ms0_0 t) (hs0_0 t) (ms0_1 t) (hs0_1 t) (ms0_2 t) (hs0_2 t) scM0_0 (Memref.isWhole_whole _) ((hcond0_0 t).mpr h0) ((hcond0_1 t).mpr h1) (fun hh => h2 ((hcond0_2 t).mp hh)) (lhsBlk m c t) (rhsArr m c t)) (ix2 p (0 : Fin 1))).trans ?_
        rw [accK_on (Emat m c) t p h1, hzero h0]
        exact subStep m c t _ p _ (addStep m c t _ p 0 (pay1_apply p))
      · have h2 : ¬n % 8 = 7 := by omega
        rw [outsAt0_D m c t h0 h1 h2]
        dsimp only
        refine (congrFun (scratch_D (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh)) (fun hh => h2 ((hcond0_2 t).mp hh)) (lhsBlk m c t) (rhsArr m c t)) (ix2 p (0 : Fin 1))).trans ?_
        rw [accK_off (Emat m c) t p h1, hzero h0]
        exact addStep m c t _ p 0 (pay1_apply p)
    · by_cases h1 : n % 9 = 0
      · by_cases h2 : n % 8 = 7
        · rw [outsAt0_F m c t h0 h1 h2]
          dsimp only
          refine (congrFun (scratch_F (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) ((hcond0_2 t).mpr h2) (lhsBlk m c t) (rhsArr m c t) _) (ix2 p (0 : Fin 1))).trans ?_
          rw [accK_on (Emat m c) t p h1]
          exact subStep m c t _ p _ (addStep m c t _ p _ (hprev h0))
        · rw [outsAt0_E m c t h0 h1 h2]
          dsimp only
          refine (congrFun (scratch_E (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (fun hh => h2 ((hcond0_2 t).mp hh)) (lhsBlk m c t) (rhsArr m c t) _) (ix2 p (0 : Fin 1))).trans ?_
          rw [accK_on (Emat m c) t p h1]
          exact subStep m c t _ p _ (addStep m c t _ p _ (hprev h0))
      · by_cases h2 : n % 8 = 7
        · rw [outsAt0_C m c t h0 h1 h2]
          dsimp only
          refine (congrFun (scratch_C (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) ((hcond0_2 t).mpr h2) (lhsBlk m c t) (rhsArr m c t) _) (ix2 p (0 : Fin 1))).trans ?_
          rw [accK_off (Emat m c) t p h1]
          exact addStep m c t _ p _ (hprev h0)
        · rw [outsAt0_B m c t h0 h1 h2]
          dsimp only
          refine (congrFun (scratch_B (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) (fun hh => h2 ((hcond0_2 t).mp hh)) (lhsBlk m c t) (rhsArr m c t) _) (ix2 p (0 : Fin 1))).trans ?_
          rw [accK_off (Emat m c) t p h1]
          exact addStep m c t _ p _ (hprev h0)

end Cert.KernelIdeal.Body

end
-- ==== Proof.KernelHost.lean ====
/-
  The host operations around the region, at the ideal values.

  Before the region: the two arrays the windows stage are the normalised array (the direct program's own stage, term
  for term) and that array times the literal `2`; a change of float format is the identity.
  After the region: the result is the shared "mean, negated" of the per-row logarithms of `pos / den`, where `den` is
  the region's output column read as a vector and `pos` at row `r` is `exp` of the inner product of scaled row
  `r mod 4096` with row `4096 + r mod 4096` (two slices, a product, a row sum from zero, an exponential, stacked twice).
-/
import proofs.«412751_j31542239822525_3_alg».proof.Proof.Gen.KernelIdeal.Frame
import proofs.«412751_j31542239822525_3_alg».proof.Proof.Gen.ReferenceIdeal.Read
import proofs.«412751_j31542239822525_3_alg».proof.Proof.LossSpec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Host

open Cert.KernelIdeal Cert.KernelIdeal.Gen Cert.SimLoss

variable (m : (ℓ : Loc nD τ sig) → Buf (Elt Ideal) ℓ)

/-- The left and right factors the region finds, at plain indices. -/
def Lof (c : Dev nD) (r : Fin 8192) (k : Fin 256) : EReal := V m c main_v10 (ix2 r k)
def Rof (c : Dev nD) (r : Fin 8192) (k : Fin 256) : EReal := V m c main_v7 (ix2 r k)

/-- The direct program's normalised array of the same arguments, at plain indices. -/
def znK (c : Dev nD) (r : Fin 8192) (k : Fin 256) : EReal :=
  Cert.ReferenceIdeal.Read.val_main_v3 (F := Ideal) (m ((c : Thread nD τ).loc main_arg0)) (m ((c : Thread nD τ).loc main_arg1)) (ix2 r k)

/-- The direct program's normalised array of the two arguments, as one composed term. -/
abbrev zn (c : Dev nD) : S8192x256.Idx → EReal :=
  Cert.ReferenceIdeal.Read.val_main_v3 (F := Ideal) (m ((c : Thread nD τ).loc main_arg0)) (m ((c : Thread nD τ).loc main_arg1))

/-- The eighth host operation's array is the normalised array: the same eight operations on the same arguments. -/
theorem V_v6 (c : Dev nD) : (V m c main_v6 : S8192x256.Idx → EReal) = zn m c := by
  show StableHlo.after hostOps0 (fun b => m (c, b)) (Proc.devRef .tc main_v6) = _
  after_results
  rfl

/-- The right factor's array: the normalised array after a change of float format, which changes no value. -/
theorem V_v7 (c : Dev nD) : (V m c main_v7 : S8192x256.Idx → EReal) = zn m c := by
  show StableHlo.after hostOps0 (fun b => m (c, b)) (Proc.devRef .tc main_v7) = _
  after_results
  rfl

/-- The left factor's array: the normalised array times the splat of the literal `2`, then the same change of format. -/
theorem V_v10 (c : Dev nD) : (V m c main_v10 : S8192x256.Idx → EReal) = fun i => zn m c i * two := by
  show StableHlo.after hostOps0 (fun b => m (c, b)) (Proc.devRef .tc main_v10) = _
  after_results
  rfl

theorem Rof_eq (c : Dev nD) : Rof m c = znK m c := by
  funext r k
  show (V m c main_v7 : S8192x256.Idx → EReal) (ix2 r k) = zn m c (ix2 r k)
  rw [V_v7]

theorem Lof_eq (c : Dev nD) : Lof m c = fun r k => znK m c r k * two := by
  funext r k
  show (V m c main_v10 : S8192x256.Idx → EReal) (ix2 r k) = zn m c (ix2 r k) * two
  rw [V_v10]

section Tail

variable (A B : FVec Ideal S8192x256 .bf16) (D : FVec Ideal S8192x1 .f32)

/-- One batch's positive-pair entries as the host operations compute them: rows `0 … 4095` of `A` against rows
    `4096 … 8191` of `B`, multiplied entry by entry, each row summed from zero, exponentiated. -/
def posVec : FVec Ideal S4096 .f32 :=
  Host.exp (Host.reduceAdd
    (mulf (extf .f32 (extractStridedSlice S4096x256 ![0, 0] A slices_S8192x256_S4096x256_0_0) bitsLt_bf16_f32)
          (extf .f32 (extractStridedSlice S4096x256 ![4096, 0] B slices_S8192x256_S4096x256_4096_0) bitsLt_bf16_f32))
    (constant S_ .f32 0x00000000#32) reducesTo_S4096x256_S4096_d1 h_S_)

/-- The per-row terms as the host operations compute them: the positive-pair vector stacked twice, divided by the
    column `D` read as a vector, then the logarithm. -/
def tailVec : FVec Ideal S8192 .f32 :=
  Host.log (Host.divf
    (concatenate S8192 0 [⟨S4096, posVec A B⟩, ⟨S4096, posVec A B⟩] concatenates_S4096_S4096_S8192_d0)
    (shapeCast S8192 D shapeCasts_S8192x1_S8192))

/-- The per-row terms as mathematics: `log (exp ⟨A (r mod 4096), B (4096 + r mod 4096)⟩ / D r)`. -/
def rowTerm : FVec Ideal S8192 .f32 :=
  fun j => Ideal.log (Ideal.div (Ideal.exp (∑ k : Fin 256, A (ix2 (lo (j 0)) k) * B (ix2 (hi (j 0)) k))) (D (ix2 (j 0) (0 : Fin 1))))

/-- Entry `q` of the positive-pair vector: the exponential of the inner product of row `q` of `A` with row `4096 + q` of `B`. -/
theorem posVec_apply (q : Fin 4096) :
    posVec A B (ix1 q)
      = Ideal.exp (∑ k : Fin 256, A (ix2 (⟨q.val, Nat.lt_trans q.isLt (by decide)⟩ : Fin 8192) k)
          * B (ix2 (⟨4096 + q.val, by have := q.isLt; omega⟩ : Fin 8192) k)) := by
  unfold posVec
  simp only [Host.exp, Host.reduceAdd, Ideal.hostUnary_exp_def, Ideal.hostReduceAdd_def]
  rw [Ideal.hostReduceAdd_single reducesTo_S4096x256_S4096_d1 (by decide)]
  rw [show constant (F := Ideal) S_ .f32 0x00000000#32 (Shape.Idx.first h_S_) = 0 from Ideal.ofBits_zero_f32, zero_add]
  refine congrArg Ideal.exp (Finset.sum_congr rfl fun k _ => ?_)
  rw [mulf_apply, extf_apply, extf_apply]
  refine congrArg₂ (· * ·) ?_ ?_
  · exact extractStridedSlice_apply _ A _ _ _ (fun a => match a with
      | ⟨0, _⟩ => by show q.val = 0 + q.val; omega
      | ⟨1, _⟩ => by show k.val = 0 + k.val; omega)
  · exact extractStridedSlice_apply _ B _ _ _ (fun a => match a with
      | ⟨0, _⟩ => by show 4096 + q.val = 4096 + q.val; rfl
      | ⟨1, _⟩ => by show k.val = 0 + k.val; omega)

/-- A vector of 4096 entries stacked on itself reads, at `r`, its entry `r mod 4096`. -/
theorem stack_self_apply (P : FVec Ideal S4096 .f32) (r : Fin 8192) :
    concatenate S8192 0 [⟨S4096, P⟩, ⟨S4096, P⟩] concatenates_S4096_S4096_S8192_d0 (ix1 r)
      = P (ix1 (⟨r.val % 4096, Nat.mod_lt _ (by decide)⟩ : Fin 4096)) := by
  by_cases h : r.val < 4096
  · have e : (⟨r.val % 4096, Nat.mod_lt _ (by decide)⟩ : Fin 4096) = ⟨r.val, h⟩ := Fin.ext (Nat.mod_eq_of_lt h)
    rw [e]
    exact concatenate_pair_apply_left (0 : Fin S8192.rank) P P concatenates_S4096_S4096_S8192_d0 (ix1 r) rfl
      (ix1 (⟨r.val, h⟩ : Fin 4096)) (fun b => match b with | ⟨0, _⟩ => rfl)
  · have h' : r.val - 4096 < 4096 := by have := r.isLt; omega
    have e : (⟨r.val % 4096, Nat.mod_lt _ (by decide)⟩ : Fin 4096) = ⟨r.val - 4096, h'⟩ :=
      Fin.ext (by show r.val % 4096 = r.val - 4096; have := r.isLt; omega)
    rw [e]
    exact concatenate_pair_apply_right (0 : Fin S8192.rank) P P concatenates_S4096_S4096_S8192_d0 (ix1 r) rfl rfl
      (ix1 (⟨r.val - 4096, h'⟩ : Fin 4096)) (fun b hb => absurd (Fin.ext (by have h1 : b.val < 1 := b.isLt; show b.val = 0; omega)) hb)
      (by show r.val - 4096 + 4096 = r.val; omega)

/-- The one-column array read as a vector: entry `r` is the column's entry `(r, 0)`. -/
theorem col_apply (r : Fin 8192) :
    shapeCast S8192 D shapeCasts_S8192x1_S8192 (ix1 r) = D (ix2 r (0 : Fin 1)) :=
  shapeCast_apply D shapeCasts_S8192x1_S8192 (ix1 r) (ix2 r (0 : Fin 1)) (by
    rw [Shape.rowMajor_val_two, Shape.rowMajor_val_one]; show r.val * 1 + 0 = r.val; omega)

/-- The host operations' per-row terms are the mathematical ones. -/
theorem tailVec_eq : tailVec A B D = rowTerm A B D := by
  funext j
  obtain ⟨r, rfl⟩ : ∃ r : Fin 8192, j = ix1 r := ⟨j 0, eq_ix1 j⟩
  show Ideal.log (Ideal.div
      (concatenate S8192 0 [⟨S4096, posVec A B⟩, ⟨S4096, posVec A B⟩] concatenates_S4096_S4096_S8192_d0 (ix1 r))
      (shapeCast S8192 D shapeCasts_S8192x1_S8192 (ix1 r))) = _
  rw [stack_self_apply, col_apply, posVec_apply]
  rfl

end Tail

/-- The mean, negated, of a vector of per-row terms: the last three host operations. -/
def lossOf (t : FVec Ideal S8192 .f32) : FVec Ideal S_ .f32 :=
  Host.negf (Host.divf (Host.reduceAdd t (constant S_ .f32 0x00000000#32) reducesTo_S8192_S_d0 h_S_) (constant S_ .f32 0x46000000#32))

/-- The per-row logarithms after the region, from the column `D` the region leaves in its output array. -/
def logRatio (c : Dev nD) (D : FVec Ideal S8192x1 .f32) : FVec Ideal S8192 .f32 :=
  fun j => Ideal.log (Ideal.div (posK (EK (Lof m c) (Rof m c)) (j 0)) (D (ix2 (j 0) (0 : Fin 1))))

theorem result_eq (c : Dev nD) :
    Pipeline.afterTail₀ cfgs (dats m) 0 (V0 m) [hostOps1] c main_v25
      = lossOf (logRatio m c ((dats m 0 c).arrAt 2 cfg0.N)) := by
  unfold Pipeline.afterTail₀
  show StableHlo.after hostOps1 _ (Proc.devRef .tc main_v25) = _
  after_results
  have h10 : Pipeline.withArrays (cfgs 0).spec c (V0 m c) (fun w => (dats m 0 c).arrAt w (cfgs 0).N) (Proc.devRef .tc main_v10)
      = V m c main_v10 :=
    (Pipeline.withArrays_arr spec0 launch0.win.arr_inj c _ _ 0).trans (((dats m 0 c).arrAt_in 0 rfl _).trans (A_eq m c 0))
  have h7 : Pipeline.withArrays (cfgs 0).spec c (V0 m c) (fun w => (dats m 0 c).arrAt w (cfgs 0).N) (Proc.devRef .tc main_v7)
      = V m c main_v7 :=
    (Pipeline.withArrays_arr spec0 launch0.win.arr_inj c _ _ 1).trans (((dats m 0 c).arrAt_in 1 rfl _).trans (A_eq m c 1))
  have h11 : Pipeline.withArrays (cfgs 0).spec c (V0 m c) (fun w => (dats m 0 c).arrAt w (cfgs 0).N) (Proc.devRef .tc main_v11)
      = (dats m 0 c).arrAt 2 cfg0.N :=
    Pipeline.withArrays_arr spec0 launch0.win.arr_inj c _ _ 2
  rw [h10, h7, h11]
  exact congrArg lossOf (tailVec_eq (V m c main_v10) (V m c main_v7) ((dats m 0 c).arrAt 2 cfg0.N))

end Cert.KernelIdeal.Host

end
-- ==== Proof.KernelFinal.lean ====
/-
  What the region leaves in its output column, and the kernel program's run re-posted at the loss.

  The output block is written only at a row tile's last column tile, where the body copies the carried column into
  it; that column holds each local row's running value after all 8 column tiles, which is the specification's tiled
  denominator of the global row. The 8 row tiles' blocks tile the [8192, 1] column, so after the region it holds the
  denominator of every row. The host operations after the region then give the mean, negated, of the per-row
  logarithms of `pos / den`.
-/
import proofs.«412751_j31542239822525_3_alg».proof.Proof.KernelRun
import proofs.«412751_j31542239822525_3_alg».proof.Proof.KernelHost
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.SimLoss

variable (m : (ℓ : Loc nD τ sig) → Buf (Elt Ideal) ℓ) (ρ : Dev nD → PrngReg)

/-- At a last-tile point the output block is the carried column. -/
theorem out_eq_scratch (c : Dev nD) (t : Fin cfg0.N) (h2 : t.val % 8 = 7) :
    (outsAt0 m c t.val t.isLt).1 = (outsAt0 m c t.val t.isLt).2 := by
  have h0 : ¬t.val % 8 = 0 := by omega
  by_cases h1 : t.val % 9 = 0
  · rw [outsAt0_F m c t h0 h1 h2]
    dsimp only
    exact (out_F (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) ((hcond0_2 t).mpr h2) (lhsBlk m c t) (rhsArr m c t) _).trans
      (scratch_F (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) ((hcond0_2 t).mpr h2) (lhsBlk m c t) (rhsArr m c t) _).symm
  · rw [outsAt0_C m c t h0 h1 h2]
    dsimp only
    exact (out_C (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) ((hcond0_2 t).mpr h2) (lhsBlk m c t) (rhsArr m c t) _).trans
      (scratch_C (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) ((hcond0_2 t).mpr h2) (lhsBlk m c t) (rhsArr m c t) _).symm

/-- The output window's block index, decided over the grid: row tile `t / 8`, the one column. -/
theorem out_index : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The column of tiled denominators. -/
def denCol (c : Dev nD) : Buf (Elt Ideal) ((c : Thread nD τ).loc main_v11) :=
  fun y => denK (Emat m c) (y 0)

/-- The running value after all tiles is the tiled denominator of the global row. -/
theorem accK_eight (E : Fin 8192 → Fin 8192 → EReal) (r : Fin 8192) (i : Fin 8) (p : Fin 1024)
    (h : r.val = 1024 * i.val + p.val) : accK E i p 8 = denK E r := by
  unfold denK
  have hi : tileOf r = i := Fin.ext (by simp only [tileOf]; have := p.isLt; omega)
  have hp : inTile r = p := Fin.ext (by simp only [inTile]; have := p.isLt; omega)
  rw [hi, hp]

/-- What a last-tile point writes back is its block of the column of denominators. -/
theorem flushed_eq (c : Dev nD) (t : Fin cfg0.N) (hf : (cfg0.win 2).flush t = true) :
    (dats m 0 c).flushed 2 t = ((cfg0.win 2).blk t).view.read (Elt Ideal) (denCol m c) := by
  have h2 : t.val % 8 = 7 := (flush0_2 t).mp hf
  have hN : t.val < 64 := lt_of_lt_of_eq t.isLt (show cfg0.N = 64 from N_0)
  show (cfg0.win 2).cut (grid0.coords t) ((dats m 0 c).after 2 t) = _
  rw [after0_2, out_eq_scratch m c t h2]
  funext j
  show (outsAt0 m c t.val t.isLt).2 j = denCol m c (((cfg0.win 2).blk t).view.emb j)
  obtain ⟨p, q, rfl⟩ : ∃ (p : Fin 1024) (q : Fin 1), j = ix2 p q := ⟨j 0, j 1, eq_ix2 j⟩
  obtain rfl : q = 0 := Subsingleton.elim _ _
  refine (scratch_eq m c t.val t.isLt p).trans ?_
  rw [h2]
  refine accK_eight (Emat m c) _ _ p ?_
  show win0_2.index t (0 : Fin 2) * 1024 + 1 * p.val = 1024 * (t.val / 8) + p.val
  rw [(out_index t).1]; omega

/-- The 8 row tiles' blocks tile the column. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  let t : Fin cfg0.N := ⟨8 * ((i 0).val / 1024) + 7, by rw [hN]; omega⟩
  refine ⟨t, (flush0_2 t).mpr (by show (8 * ((i 0).val / 1024) + 7) % 8 = 7; omega), ?_⟩
  show i ∈ ((View.whole main_v11).slice (win0_2.rect t)).set
  rw [View.set_slice_whole, Rect.mem_set_unit]
  intro a
  have e0 : win0_2.index t (0 : Fin 2) = (8 * ((i 0).val / 1024) + 7) / 8 := (out_index t).1
  have e1 : win0_2.index t (1 : Fin 2) = 0 := (out_index t).2
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

/-- After the region the output column holds every row's tiled denominator. -/
theorem final (c : Dev nD) : (dats m 0 c).arrAt 2 cfg0.N = denCol m c :=
  (dats m 0 c).arrAt_eq_of_cover 2 (denCol m c) (flushed_eq m c) covered

/-- The kernel program's run, read: its result at the loss of the per-row terms, the arguments unchanged. -/
theorem run : θ_run defs (onTc (τ := τ) (main (F := Ideal))) ⟨m, fun _ => 0, ρ⟩ fun r => ∀ c : Dev nD,
      r.2.mem ((c : Thread nD τ).loc main_v25) = Host.lossOf (Host.logRatio m c (denCol m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v25 (Pipeline.mem_restRefs_of main_v25 (by decide) (by decide))).trans
        ((Host.result_eq m c).trans (by rw [final m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.RefValue.lean ====
/-
  The direct program read at a row: its array of per-row terms is `termR` of the matrix `ER` of its normalised
  array, and that normalised array is the stacked input with each row divided by its norm.

  * `zOf a b` stacks the two inputs: row `r < 4096` is row `r` of `a`, row `r ≥ 4096` is row `r - 4096` of `b`.
  * `znOf a b` is the program's normalised array at plain indices; `znOf_eq`: each of its rows is `normRow` of the
    stacked row (the squares summed from zero, the root broadcast back along the row, the quotient).
  * `log_ratio_apply`: the logarithm stage at row `r`. The identity mask is `r = c` (an `iota` compared with an
    `iota`), the label of an index `x` is `x mod 4096` (an `iota` over 4096 stacked twice), both selects pick by those
    masks, both row sums start from zero.
-/
import proofs.«412751_j31542239822525_3_alg».proof.Proof.Gen.ReferenceIdeal.Read
import proofs.«412751_j31542239822525_3_alg».proof.Proof.LossSpec
import Idealize.ShloMosaic.Lib.ValueIdx
import Idealize.ShloMosaic.Lib.Pipeline.Value
import Idealize.ShloMosaic.PureOps.Ideal.Laws

noncomputable section

namespace Cert.SimLoss.Ref

open Cert.ReferenceIdeal Cert.ReferenceIdeal.Gen Cert.ReferenceIdeal.Read
open Idealize.ShloMosaic Idealize.ShloMosaic.ValueIdx

/-- An input array of the direct program at the ideal values. -/
abbrev Arr : Type := (⟨S4096x256, .f32⟩ : BufTy).Contents (Elt Ideal)

/-- The two inputs stacked along the rows. -/
def zOf (a b : Arr) (r : Fin 8192) (k : Fin 256) : EReal :=
  if h : r.val < 4096 then a (ix2 ⟨r.val, h⟩ k) else b (ix2 ⟨r.val - 4096, by have := r.isLt; omega⟩ k)

/-- The program's normalised array at plain indices. -/
def znOf (a b : Arr) (r : Fin 8192) (k : Fin 256) : EReal := val_main_v3 (F := Ideal) a b (ix2 r k)

/-- Two naturals below `2 ^ 32` are equal exactly when their 32-bit words are. -/
theorem ofNat32_eq_iff (x y : ℕ) (hx : x < 2 ^ 32) (hy : y < 2 ^ 32) :
    BitVec.ofNat 32 x = BitVec.ofNat 32 y ↔ x = y := by
  constructor
  · intro h
    have h' := congrArg BitVec.toNat h
    simp only [BitVec.toNat_ofNat] at h'
    rw [Nat.mod_eq_of_lt hx, Nat.mod_eq_of_lt hy] at h'
    exact h'
  · intro h; rw [h]

/-- The equality compare of two small naturals' words is the bit of their equality. -/
theorem cmpi_eq_ofNat (x y : ℕ) (hx : x < 2 ^ 32) (hy : y < 2 ^ 32) :
    IntOp.cmpi .eq (BitVec.ofNat 32 x) (BitVec.ofNat 32 y) = if x = y then 1#1 else 0#1 := by
  unfold IntOp.cmpi
  by_cases h : x = y
  · rw [if_pos h, h]; simp
  · rw [if_neg h]
    have hne : ¬ BitVec.ofNat 32 x = BitVec.ofNat 32 y := fun e => h ((ofNat32_eq_iff x y hx hy).1 e)
    have hb : (BitVec.ofNat 32 x == BitVec.ofNat 32 y) = false := beq_eq_false_iff_ne.2 hne
    show BitVec.ofBool (BitVec.ofNat 32 x == BitVec.ofNat 32 y) = 0#1
    rw [hb]; rfl

/-- The label array: an `iota` over 4096 stacked twice reads `x mod 4096` at `x`. -/
theorem label_apply (x : Fin 8192) :
    val_main_v14 (F := Ideal) (ix1 x) = BitVec.ofNat 32 (x.val % 4096) := by
  unfold val_main_v14
  have hx : x.val % 4096 < 4096 := Nat.mod_lt _ (by decide)
  have := concatenate_replicate_apply (t := S8192) (s₁ := S4096) 0 2 (val_main_v13 (F := Ideal))
    concatenates_S4096_S4096_S8192_d0 rfl (ix1 x) (ix1 ⟨x.val % 4096, hx⟩) rfl
    (fun b hb => absurd (Fin.ext (by match b with | ⟨0, _⟩ => rfl)) hb)
  exact this

/-- The stacked array read at plain indices. -/
theorem stack_apply (a b : Arr) (r : Fin 8192) (k : Fin 256) :
    val_main_v0 (F := Ideal) a b (ix2 r k) = zOf a b r k := by
  unfold val_main_v0 zOf
  by_cases h : r.val < 4096
  · rw [dif_pos h]
    exact concatenate_pair_apply_left (t := S8192x256) (s₁ := S4096x256) (s₂ := S4096x256) 0 a b
      concatenates_S4096x256_S4096x256_S8192x256_d0 (ix2 r k) rfl (ix2 ⟨r.val, h⟩ k)
      (fun d => by match d with | ⟨0, _⟩ => rfl | ⟨1, _⟩ => rfl)
  · rw [dif_neg h]
    have hr : r.val - 4096 < 4096 := by have := r.isLt; omega
    exact concatenate_pair_apply_right (t := S8192x256) (s₁ := S4096x256) (s₂ := S4096x256) 0 a b
      concatenates_S4096x256_S4096x256_S8192x256_d0 (ix2 r k) rfl rfl (ix2 ⟨r.val - 4096, hr⟩ k)
      (Fin.forall_fin_two.2 ⟨fun hd => absurd rfl hd, fun _ => rfl⟩)
      (by show r.val - 4096 + 4096 = r.val; omega)

theorem znOf_eq (a b : Arr) (r : Fin 8192) : znOf a b r = normRow (zOf a b r) := by
  funext k
  have e1 : ∀ k' : Fin 256,
      idx_main_call0_v1 (idx_main_call0_v2 (idx_main_v2 (ix2 r k))) k' = ix2 r k' :=
    fun k' => funext fun d => Fin.ext (by match d with | ⟨0, _⟩ => rfl | ⟨1, _⟩ => rfl)
  unfold znOf normRow
  rw [val_main_v3_apply, val_main_v2_apply, val_main_v1_apply, val_main_call0_v2_apply,
    val_main_call0_v1_apply]
  simp only [val_main_call0_v0_apply, val_main_call0_cst_apply, e1, stack_apply, Ideal.hostDivf_def,
    Ideal.hostUnary_sqrt_def, Ideal.mulf_def, Ideal.ofBits_def, Ideal.ofBits_zero_f32, zero_add]

/-- The zero constant the diagonal entries are replaced by, read at any index. -/
theorem zero1_apply (i : S8192x8192.Idx) : val_main_call1_v1 (F := Ideal) i = 0 := by
  rw [val_main_call1_v1_apply, val_main_call1_v0_apply, val_main_cst_0_apply, Ideal.ofBits_def,
    Ideal.ofBits_zero_f32]

/-- The zero constant the unmatched entries are replaced by, read at any index. -/
theorem zero2_apply (i : S8192x8192.Idx) : val_main_call2_v1 (F := Ideal) i = 0 := by
  rw [val_main_call2_v1_apply, val_main_call2_v0_apply, val_main_cst_1_apply, Ideal.ofBits_def,
    Ideal.ofBits_zero_f32]

/-- The identity mask: the row number (plus the zero word) compared with the column number. -/
theorem diag_apply (r c : Fin 8192) :
    val_main_v12 (F := Ideal) (ix2 r c) = if r = c then 1#1 else 0#1 := by
  rw [val_main_v12_apply, val_main_v11_apply, val_main_v8_apply, val_main_v9_apply,
    val_main_v10_apply, val_main_c_apply]
  show IntOp.cmpi .eq (IntOp.addi (BitVec.ofNat 32 r.val) 0#32) (BitVec.ofNat 32 c.val) = _
  have h0 : IntOp.addi (BitVec.ofNat 32 r.val) 0#32 = BitVec.ofNat 32 r.val := by
    unfold IntOp.addi; exact BitVec.add_zero _
  have hr : r.val < 2 ^ 32 := by have := r.isLt; omega
  have hc : c.val < 2 ^ 32 := by have := c.isLt; omega
  rw [h0, cmpi_eq_ofNat r.val c.val hr hc]
  by_cases h : r = c
  · rw [if_pos h, if_pos (congrArg Fin.val h)]
  · rw [if_neg h, if_neg (fun e => h (Fin.ext e))]

/-- The positive-pair mask: the column's label equals the row's, and the entry is off the diagonal. -/
theorem pos_mask_apply (r c : Fin 8192) :
    val_main_v21 (F := Ideal) (ix2 r c)
      = if (c.val % 4096 = r.val % 4096 ∧ ¬ r = c) then 1#1 else 0#1 := by
  have e17 : idx_main_v15 (idx_main_v17 (ix2 r c)) = ix1 c :=
    funext fun d => Fin.ext (by match d with | ⟨0, _⟩ => rfl)
  have e18 : idx_main_v16 (idx_main_v18 (ix2 r c)) = ix1 r :=
    funext fun d => Fin.ext (by match d with | ⟨0, _⟩ => rfl)
  have hc : c.val % 4096 < 2 ^ 32 := by have := Nat.mod_lt c.val (show 0 < 4096 by decide); omega
  have hr : r.val % 4096 < 2 ^ 32 := by have := Nat.mod_lt r.val (show 0 < 4096 by decide); omega
  rw [val_main_v21_apply, val_main_v20_apply, val_main_v19_apply, val_main_v17_apply,
    val_main_v15_apply, val_main_v18_apply, val_main_v16_apply, e17, e18, label_apply, label_apply,
    diag_apply, cmpi_eq_ofNat _ _ hc hr]
  unfold IntOp.andi
  by_cases h1 : c.val % 4096 = r.val % 4096
  · by_cases h2 : r = c
    · rw [if_pos h1, if_pos h2, if_neg (fun h => h.2 h2)]; decide
    · rw [if_pos h1, if_neg h2, if_pos ⟨h1, h2⟩]; decide
  · have h3 : ¬ (c.val % 4096 = r.val % 4096 ∧ ¬ r = c) := fun h => h1 h.1
    rw [if_neg h1, if_neg h3]
    by_cases h2 : r = c
    · rw [if_pos h2]; decide
    · rw [if_neg h2]; decide

/-- The exponentiated, temperature-divided inner product of two normalised rows. -/
theorem exp_apply (a b : Arr) (r c : Fin 8192) :
    val_main_v22 (F := Ideal) a b (ix2 r c) = ER (znOf a b) r c := by
  have el : ∀ k : Fin 256, lidx_main_v5 (ix2 r c) k = ix2 r k :=
    fun k => funext fun d => Fin.ext (by match d with | ⟨0, _⟩ => rfl | ⟨1, _⟩ => rfl)
  have er : ∀ k : Fin 256, idx_main_v4 (ridx_main_v5 (ix2 r c) k) = ix2 c k :=
    fun k => funext fun d => Fin.ext (by match d with | ⟨0, _⟩ => rfl | ⟨1, _⟩ => rfl)
  unfold ER znOf half
  rw [val_main_v22_apply, val_main_v7_apply, val_main_v6_apply, val_main_cst_apply,
    val_main_v5_apply]
  simp only [val_main_v4_apply, el, er, Ideal.hostDivf_def, Ideal.hostUnary_exp_def,
    Ideal.ofBits_def]

/-- The similarity matrix with its diagonal replaced by zero. -/
theorem masked_apply (a b : Arr) (r c : Fin 8192) :
    val_main_v23 (F := Ideal) a b (ix2 r c) = if r = c then 0 else ER (znOf a b) r c := by
  rw [val_main_v23_apply, diag_apply, zero1_apply, exp_apply]
  by_cases h : r = c
  · rw [if_pos h, if_pos h]; exact select_one _ _
  · rw [if_neg h, if_neg h]; exact select_zero _ _

/-- The denominator: the diagonal-zeroed row summed from zero. -/
theorem den_apply (a b : Arr) (r : Fin 8192) :
    val_main_v26 (F := Ideal) a b (ix1 r) = denR (ER (znOf a b)) r := by
  have e : ∀ c : Fin 8192, idx_main_v26 (ix1 r) c = ix2 r c :=
    fun c => funext fun d => Fin.ext (by match d with | ⟨0, _⟩ => rfl | ⟨1, _⟩ => rfl)
  unfold denR
  rw [val_main_v26_apply, val_main_cst_3_apply, Ideal.ofBits_def, Ideal.ofBits_zero_f32, zero_add]
  refine Finset.sum_congr rfl fun c _ => ?_
  rw [e, masked_apply]

/-- The numerator: the diagonal-zeroed row masked to equal labels off the diagonal, summed from zero. -/
theorem pos_apply (a b : Arr) (r : Fin 8192) :
    val_main_v25 (F := Ideal) a b (ix1 r) = posR (ER (znOf a b)) r := by
  have e : ∀ c : Fin 8192, idx_main_v25 (ix1 r) c = ix2 r c :=
    fun c => funext fun d => Fin.ext (by match d with | ⟨0, _⟩ => rfl | ⟨1, _⟩ => rfl)
  unfold posR
  rw [val_main_v25_apply, val_main_cst_2_apply, Ideal.ofBits_def, Ideal.ofBits_zero_f32, zero_add]
  refine Finset.sum_congr rfl fun c _ => ?_
  rw [e, val_main_v24_apply, pos_mask_apply, masked_apply, zero2_apply]
  by_cases h : c.val % 4096 = r.val % 4096 ∧ ¬ r = c
  · rw [if_pos h, if_pos h]; exact select_one _ _
  · rw [if_neg h, if_neg h]; exact select_zero _ _

theorem log_ratio_apply (a b : Arr) (r : Fin 8192) :
    val_main_v28 (F := Ideal) a b (ix1 r) = termR (ER (znOf a b)) r := by
  unfold termR
  rw [val_main_v28_apply, val_main_v27_apply, den_apply, pos_apply, Ideal.hostUnary_log_def,
    Ideal.hostDivf_def]

end Cert.SimLoss.Ref

end
-- ==== Proof.LossRows.lean ====
/-
  The matrix of exponentiated similarities computed two ways, and what a normalised row looks like.

  * `EK_eq_ER`: multiplying the left factor by `2` before the inner product is dividing the inner product by
    `1/2` afterwards, on ALL extended reals (a nonnegative finite factor distributes over any sum).
  * `ER_nonneg`, `ER_symm`: an exponential is nonnegative; the inner product is symmetric.
  * `ER_row`: for rows of the shape `RowOk`, a row's diagonal entry is finite, or it is `⊤` and then every entry of
    that row is `0` or `⊤` (an all-`⊥` row against a real row with a nonzero entry sums to `⊥` or `⊤`, against
    another all-`⊥` row to `⊤`).
  * `rowOk_normRow`: a row of reals divided by its norm has the shape `RowOk`.
-/
import proofs.«412751_j31542239822525_3_alg».proof.Proof.LossSpec
import Mathlib.Data.EReal.Basic
import Mathlib.Data.EReal.Operations
import Mathlib.Algebra.BigOperators.Group.Finset.Basic
import Mathlib.Algebra.Order.BigOperators.Group.Finset
import Mathlib.Analysis.Real.Sqrt
import Mathlib.Analysis.Complex.Exponential

noncomputable section

namespace Cert.SimLoss

open Idealize.ShloMosaic

/-- The exponential of an extended real is nonnegative: `0` at `⊥`, `⊤` at `⊤`, a positive real otherwise. -/
theorem exp_nonneg (y : EReal) : 0 ≤ Ideal.exp y := by
  induction y using EReal.rec with
  | bot => rw [Ideal.exp_bot]
  | coe a => rw [Ideal.exp_coe]; exact EReal.coe_nonneg.mpr (Real.exp_pos a).le
  | top => rw [Ideal.exp_top]; exact le_top

/-- A nonnegative finite factor comes out of any finite sum of extended reals. -/
theorem mul_sum_of_nonneg_of_ne_top {ι : Type*} (s : Finset ι) (f : ι → EReal) {a : EReal} (ha : 0 ≤ a)
    (ha' : a ≠ ⊤) : ∑ k ∈ s, a * f k = a * ∑ k ∈ s, f k := by
  classical
  induction s using Finset.induction_on with
  | empty => simp
  | insert i s hi ih =>
    rw [Finset.sum_insert hi, Finset.sum_insert hi, ih, EReal.left_distrib_of_nonneg_of_ne_top ha ha']

theorem two_eq : two = ((2 : ℝ) : EReal) := by
  unfold two
  simp [Ideal.ofBits, Ideal.ieee, -EReal.coe_mul]
  norm_num

theorem half_eq : half = ((1 / 2 : ℝ) : EReal) := by
  unfold half
  simp [Ideal.ofBits, Ideal.ieee, -EReal.coe_mul]
  norm_num

/-- Dividing by the literal `1/2` is multiplying by the real `2`, at every extended real. -/
theorem div_half (x : EReal) : Ideal.div x half = ((2 : ℝ) : EReal) * x := by
  rw [half_eq, Ideal.div_coe (by norm_num) x, mul_comm]
  norm_num

theorem EK_eq_ER (zn : Fin 8192 → Fin 256 → EReal) :
    EK (fun r k => zn r k * two) zn = ER zn := by
  funext r c
  unfold EK ER
  rw [div_half, two_eq, ← mul_sum_of_nonneg_of_ne_top _ _ (by norm_num) (EReal.coe_ne_top 2)]
  congr 1
  refine Finset.sum_congr rfl fun k _ => ?_
  rw [mul_assoc, mul_left_comm]

theorem ER_nonneg (zn : Fin 8192 → Fin 256 → EReal) (r c : Fin 8192) : 0 ≤ ER zn r c := by
  unfold ER
  exact exp_nonneg _

theorem ER_symm (zn : Fin 8192 → Fin 256 → EReal) (r c : Fin 8192) : ER zn r c = ER zn c r := by
  unfold ER
  congr 2
  exact Finset.sum_congr rfl fun k _ => mul_comm _ _

/-- The coercion of reals into the extended reals commutes with finite sums. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

/-- A finite sum of extended reals each `⊥`, `0` or `⊤` is `⊥`, or is `⊤`, or has every term `0`:
    a `⊥` term absorbs everything, and otherwise a `⊤` term does. -/
theorem sum_bot_zero_top {ι : Type*} (s : Finset ι) (f : ι → EReal)
    (h : ∀ k ∈ s, f k = ⊥ ∨ f k = 0 ∨ f k = ⊤) :
    ∑ k ∈ s, f k = ⊥ ∨ ∑ k ∈ s, f k = ⊤ ∨ ∀ k ∈ s, f k = 0 := by
  classical
  induction s using Finset.induction_on with
  | empty => right; right; intro k hk; simp at hk
  | insert i s hi ih =>
    have ih' := ih fun k hk => h k (Finset.mem_insert_of_mem hk)
    rw [Finset.sum_insert hi]
    rcases h i (Finset.mem_insert_self i s) with hb | h0 | ht
    · left; rw [hb, EReal.bot_add]
    · rw [h0, zero_add]
      rcases ih' with hs | hs | hs
      · exact Or.inl hs
      · exact Or.inr (Or.inl hs)
      · refine Or.inr (Or.inr fun k hk => ?_)
        rcases Finset.mem_insert.mp hk with rfl | hk
        · exact h0
        · exact hs k hk
    · rw [ht]
      rcases ih' with hs | hs | hs
      · left; rw [hs, EReal.add_bot]
      · right; left; rw [hs, EReal.top_add_top]
      · right; left; rw [Finset.sum_eq_zero hs, add_zero]

/-- `⊥` times a real is `⊥`, `0` or `⊤` by the real's sign, and is `0` only for the real `0`. -/
theorem bot_mul_coe_cases (y : ℝ) :
    ((⊥ : EReal) * (y : EReal) = ⊥ ∨ (⊥ : EReal) * (y : EReal) = 0 ∨ (⊥ : EReal) * (y : EReal) = ⊤) ∧
      ((⊥ : EReal) * (y : EReal) = 0 → y = 0) := by
  rcases lt_trichotomy y 0 with h | h | h
  · rw [EReal.bot_mul_coe_of_neg h]
    exact ⟨Or.inr (Or.inr rfl), fun h' => absurd h' EReal.top_ne_zero⟩
  · subst h
    rw [EReal.coe_zero, mul_zero]
    exact ⟨Or.inr (Or.inl rfl), fun _ => rfl⟩
  · rw [EReal.bot_mul_coe_of_pos h]
    exact ⟨Or.inl rfl, fun h' => absurd h' EReal.bot_ne_zero⟩

/-- The inner product of an all-`⊥` row with a row of the shape `RowOk` is `⊥` or `⊤`: every product is `⊥`,
    `0` or `⊤`, and at least one of them is not `0`. -/
theorem inner_bot_rowOk (u v : Fin 256 → EReal) (hu : ∀ k, u k = ⊥) (hv : RowOk v) :
    ∑ k : Fin 256, u k * v k = ⊥ ∨ ∑ k : Fin 256, u k * v k = ⊤ := by
  have key : (∀ k ∈ (Finset.univ : Finset (Fin 256)), u k * v k = ⊥ ∨ u k * v k = 0 ∨ u k * v k = ⊤) ∧
      ∃ k, u k * v k ≠ 0 := by
    rcases hv with ⟨y, hy, k0, hk0⟩ | hv
    · refine ⟨fun k _ => ?_, k0, ?_⟩
      · rw [hu k, hy k]; exact (bot_mul_coe_cases (y k)).1
      · rw [hu k0, hy k0]; exact fun h => hk0 ((bot_mul_coe_cases (y k0)).2 h)
    · refine ⟨fun k _ => ?_, 0, ?_⟩
      · rw [hu k, hv k, EReal.bot_mul_bot]; exact Or.inr (Or.inr rfl)
      · rw [hu 0, hv 0, EReal.bot_mul_bot]; exact EReal.top_ne_zero
  rcases sum_bot_zero_top _ _ key.1 with h | h | h
  · exact Or.inl h
  · exact Or.inr h
  · obtain ⟨k, hk⟩ := key.2
    exact absurd (h k (Finset.mem_univ k)) hk

theorem ER_row (zn : Fin 8192 → Fin 256 → EReal) (hz : ∀ r, RowOk (zn r)) (r : Fin 8192) :
    ER zn r r ≠ ⊤ ∨ (ER zn r r = ⊤ ∧ ∀ c, ER zn r c = 0 ∨ ER zn r c = ⊤) := by
  rcases hz r with ⟨x, hx, -⟩ | hbot
  · -- a real row: the diagonal inner product is a real, and so is its exponential
    left
    have hreal : ∑ k : Fin 256, zn r k * zn r k = ((∑ k : Fin 256, x k * x k : ℝ) : EReal) := by
      rw [← coe_sum]
      exact Finset.sum_congr rfl fun k _ => by rw [hx k, EReal.coe_mul]
    unfold ER
    rw [div_half, hreal, ← EReal.coe_mul, Ideal.exp_coe]
    exact EReal.coe_ne_top _
  · -- an all-`⊥` row: every inner product is `⊥` or `⊤`, so every entry is `0` or `⊤`
    right
    have hcol : ∀ c, ER zn r c = 0 ∨ ER zn r c = ⊤ := by
      intro c
      unfold ER
      rw [div_half]
      rcases inner_bot_rowOk (zn r) (zn c) hbot (hz c) with h | h
      · left; rw [h, EReal.coe_mul_bot_of_pos (show (0 : ℝ) < 2 by norm_num), Ideal.exp_bot]
      · right; rw [h, EReal.coe_mul_top_of_pos (show (0 : ℝ) < 2 by norm_num), Ideal.exp_top]
    refine ⟨?_, hcol⟩
    -- on the diagonal every product is `⊥ * ⊥ = ⊤`, so the sum is nonnegative, hence `⊤`
    have hdiag : ∑ k : Fin 256, zn r k * zn r k = ⊤ := by
      rcases inner_bot_rowOk (zn r) (zn r) hbot (hz r) with h | h
      · exfalso
        have h0 : (0 : EReal) ≤ ∑ k : Fin 256, zn r k * zn r k :=
          Finset.sum_nonneg fun k _ => by rw [hbot k, EReal.bot_mul_bot]; exact le_top
        rw [h] at h0
        exact absurd h0 (not_le.mpr EReal.bot_lt_zero)
      · exact h
    unfold ER
    rw [div_half, hdiag, EReal.coe_mul_top_of_pos (show (0 : ℝ) < 2 by norm_num), Ideal.exp_top]

theorem rowOk_normRow (x : Fin 256 → ℝ) : RowOk (normRow fun k => (x k : EReal)) := by
  -- the sum of squares is a nonnegative real `S`, and its square root the real `√S`
  obtain ⟨S, hS⟩ : ∃ S : ℝ, S = ∑ k : Fin 256, x k * x k := ⟨_, rfl⟩
  have hsum : ∑ k' : Fin 256, ((x k' : ℝ) : EReal) * ((x k' : ℝ) : EReal) = ((S : ℝ) : EReal) := by
    rw [hS, ← coe_sum]
    exact Finset.sum_congr rfl fun k _ => (EReal.coe_mul _ _).symm
  have hS0 : 0 ≤ S := by rw [hS]; exact Finset.sum_nonneg fun k _ => mul_self_nonneg (x k)
  have hsqrt : Ideal.sqrt ((S : ℝ) : EReal) = ((Real.sqrt S : ℝ) : EReal) := by
    rw [Ideal.sqrt_coe, if_neg (not_lt.mpr hS0)]
  have hentry : ∀ k, normRow (fun k => (x k : EReal)) k
      = Ideal.div (x k : EReal) ((Real.sqrt S : ℝ) : EReal) := by
    intro k
    show Ideal.div (x k : EReal)
      (Ideal.sqrt (∑ k' : Fin 256, ((x k' : ℝ) : EReal) * ((x k' : ℝ) : EReal))) = _
    rw [hsum, hsqrt]
  rcases hS0.eq_or_lt with h0 | hpos
  · -- `S = 0`: every `x k` is `0`, and every entry is `0 / 0`
    right
    have hx : ∀ k, x k = 0 := by
      intro k
      have hk := (Finset.sum_eq_zero_iff_of_nonneg (fun k _ => mul_self_nonneg (x k))).mp
        (hS.symm.trans h0.symm) k (Finset.mem_univ k)
      exact mul_self_eq_zero.mp hk
    intro k
    rw [hentry k, ← h0, Real.sqrt_zero, hx k, EReal.coe_zero]
    simp [Ideal.div]
  · -- `S > 0`: every entry is the real `x k / √S`, and some `x k` is not `0`
    left
    have hq : 0 < Real.sqrt S := Real.sqrt_pos.mpr hpos
    refine ⟨fun k => x k * (1 / Real.sqrt S), fun k => ?_, ?_⟩
    · rw [hentry k, Ideal.div_coe hq.ne', EReal.coe_mul]
    · by_contra hall
      have hx : ∀ k, x k = 0 := fun k => by
        by_contra hk
        exact hall ⟨k, mul_ne_zero hk (one_div_ne_zero hq.ne')⟩
      have hzero : S = 0 := by
        rw [hS]
        exact Finset.sum_eq_zero fun k _ => by rw [hx k, mul_zero]
      exact hpos.ne' hzero

end Cert.SimLoss

end
-- ==== Proof.LossAlgebra.lean ====
/-
  The two per-row terms agree, for any matrix `E` of nonnegative, symmetric entries each of whose rows has a finite
  diagonal entry or is made of `0`s and `⊤`s with `⊤` on the diagonal.

  A finite diagonal entry cancels exactly: `(a + e) - e = a` for every extended real `a` and real `e`, so the running
  value ends at the row sum without the diagonal entry. A diagonal entry `⊤` makes the running value `⊤ - ⊤ = ⊥` on
  its tile and `⊥` from there on, so the tiled quotient is `pos · 0 = 0`; on the direct side the positive pair is a
  summand of the denominator and both are `0` or `⊤`, so the quotient is `0` or `0 / 0 = ⊥`; the logarithm of either
  is `⊥`.
-/
import proofs.«412751_j31542239822525_3_alg».proof.Proof.LossSpec
import Mathlib.Algebra.BigOperators.Fin
import Mathlib.Algebra.Order.BigOperators.Group.Finset
import Mathlib.Data.EReal.Operations
import Mathlib.Data.EReal.Inv

noncomputable section

namespace Cert.SimLoss

open Idealize.ShloMosaic

/-! ### Index arithmetic: a global index is a tile and a position inside it -/

private theorem col_tileOf_inTile (r : Fin 8192) : col (tileOf r) (inTile r) = r := by
  apply Fin.ext
  simp only [col, tileOf, inTile]
  exact Nat.div_add_mod r.val 1024

private theorem tileOf_col (j : Fin 8) (q : Fin 1024) : tileOf (col j q) = j := by
  apply Fin.ext
  simp only [col, tileOf]
  have := q.isLt
  omega

private theorem inTile_col (j : Fin 8) (q : Fin 1024) : inTile (col j q) = q := by
  apply Fin.ext
  simp only [col, inTile]
  have := q.isLt
  omega

/-- The pairs (tile, position) are in bijection with the global indices. -/
private def colEquiv : Fin 8 × Fin 1024 ≃ Fin 8192 where
  toFun x := col x.1 x.2
  invFun c := (tileOf c, inTile c)
  left_inv x := by
    apply Prod.ext
    · exact tileOf_col x.1 x.2
    · exact inTile_col x.1 x.2
  right_inv c := col_tileOf_inTile c

/-- A sum over all global indices is the sum over the tiles of the sums over each tile. -/
private theorem sum_tiles (f : Fin 8192 → EReal) :
    ∑ c, f c = ∑ j : Fin 8, ∑ q : Fin 1024, f (col j q) := by
  rw [← Fintype.sum_prod_type' (f := fun j q => f (col j q))]
  exact (Equiv.sum_comp colEquiv f).symm

/-! ### Sums of nonnegative extended reals -/

private theorem sum_eq_top {ι : Type} [Fintype ι] (f : ι → EReal) (h0 : ∀ c, 0 ≤ f c) (c₀ : ι)
    (h : f c₀ = ⊤) : ∑ c, f c = ⊤ := by
  apply top_le_iff.mp
  rw [← h]
  exact Finset.single_le_sum (fun c _ => h0 c) (Finset.mem_univ c₀)

private theorem ne_bot_of_nonneg {a : EReal} (h : 0 ≤ a) : a ≠ ⊥ :=
  (lt_of_lt_of_le EReal.bot_lt_zero h).ne'

private theorem log_zero' : Ideal.log 0 = ⊥ := by
  rw [← EReal.coe_zero, Ideal.log_coe, if_pos le_rfl]

/-! ### The two divisions and the logarithm at the corners that occur -/

private theorem div_bot (x : EReal) : Ideal.div x ⊥ = 0 := by
  unfold Ideal.div
  rw [if_neg (by simp), EReal.inv_bot, mul_zero]

private theorem div_top (x : EReal) : Ideal.div x ⊤ = 0 := by
  unfold Ideal.div
  rw [if_neg (by simp), EReal.inv_top, mul_zero]

private theorem log_div_zero (d : EReal) : Ideal.log (Ideal.div 0 d) = ⊥ := by
  unfold Ideal.div
  by_cases h : d = 0
  · rw [if_pos h, if_neg (lt_irrefl _), Ideal.log_bot]
  · rw [if_neg h, zero_mul, log_zero']

section Row

variable (E : Fin 8192 → Fin 8192 → EReal)

/-! ### One row, tile by tile -/

/-- Row `(i, p)`'s sum over column tile `j` with the row's own diagonal entry replaced by zero. -/
private def zTile (i : Fin 8) (p : Fin 1024) (j : Fin 8) : EReal :=
  ∑ q : Fin 1024, if col i p = col j q then 0 else E (col i p) (col j q)

private theorem col_eq_iff (i j : Fin 8) (p q : Fin 1024) : col i p = col j q ↔ i = j ∧ p = q := by
  constructor
  · intro h
    exact ⟨by rw [← tileOf_col i p, h, tileOf_col], by rw [← inTile_col i p, h, inTile_col]⟩
  · rintro ⟨rfl, rfl⟩
    rfl

/-- On the row's own tile the local diagonal picks out exactly the diagonal entry. -/
private theorem diagTile_self (i : Fin 8) (p : Fin 1024) :
    diagTile E i p i = E (col i p) (col i p) := by
  unfold diagTile
  rw [Finset.sum_ite_eq, if_pos (Finset.mem_univ p)]

/-- Off the row's own tile nothing is zeroed. -/
private theorem rowTile_of_ne (i : Fin 8) (p : Fin 1024) (j : Fin 8) (h : i ≠ j) :
    rowTile E i p j = zTile E i p j := by
  unfold rowTile zTile
  apply Finset.sum_congr rfl
  intro q _
  rw [if_neg]
  intro hc
  exact h ((col_eq_iff i j p q).mp hc).1

/-- On the row's own tile the tile sum is the zeroed tile sum plus the diagonal entry. -/
private theorem rowTile_self (i : Fin 8) (p : Fin 1024) :
    rowTile E i p i = zTile E i p i + E (col i p) (col i p) := by
  have hd := diagTile_self E i p
  unfold diagTile at hd
  rw [← hd]
  unfold rowTile zTile
  rw [← Finset.sum_add_distrib]
  apply Finset.sum_congr rfl
  intro q _
  by_cases h : p = q
  · subst h
    rw [if_pos rfl, if_pos rfl, zero_add]
  · have hne : ¬ col i p = col i q := fun hc => h ((col_eq_iff i i p q).mp hc).2
    rw [if_neg hne, if_neg h, add_zero]

/-- The direct denominator, tile by tile. -/
private theorem denR_tiles (i : Fin 8) (p : Fin 1024) :
    denR E (col i p) = ∑ j, zTile E i p j := by
  unfold denR zTile
  exact sum_tiles _

private theorem accK_succ (i : Fin 8) (p : Fin 1024) (n : ℕ) (h : n < 8) :
    accK E i p (n + 1) = stepK E i p ⟨n, h⟩ (accK E i p n) := by
  rw [accK, dif_pos h]

/-! ### A finite diagonal entry cancels exactly -/

private theorem stepK_of_ne_top (hnn : ∀ r c, 0 ≤ E r c) (i : Fin 8) (p : Fin 1024)
    (he : E (col i p) (col i p) ≠ ⊤) (j : Fin 8) (a : EReal) :
    stepK E i p j a = a + zTile E i p j := by
  unfold stepK
  by_cases h : i = j
  · subst h
    rw [if_pos rfl, rowTile_self, diagTile_self]
    obtain ⟨x, hx⟩ : ∃ x : ℝ, E (col i p) (col i p) = (x : EReal) :=
      ⟨_, (EReal.coe_toReal he (ne_bot_of_nonneg (hnn _ _))).symm⟩
    rw [hx, ← add_assoc, EReal.add_sub_cancel_right]
  · rw [if_neg h, rowTile_of_ne E i p j h]

private theorem accK_eight_of_ne_top (hnn : ∀ r c, 0 ≤ E r c) (i : Fin 8) (p : Fin 1024)
    (he : E (col i p) (col i p) ≠ ⊤) : accK E i p 8 = ∑ j, zTile E i p j := by
  rw [Fin.sum_univ_eight]
  rw [accK_succ E i p 7 (by omega), accK_succ E i p 6 (by omega), accK_succ E i p 5 (by omega),
    accK_succ E i p 4 (by omega), accK_succ E i p 3 (by omega), accK_succ E i p 2 (by omega),
    accK_succ E i p 1 (by omega), accK_succ E i p 0 (by omega)]
  simp only [stepK_of_ne_top E hnn i p he]
  rw [accK, zero_add]
  rfl

/-! ### An infinite diagonal entry sends the running value to `⊥` for good -/

private theorem accK_of_top (i : Fin 8) (p : Fin 1024) (he : E (col i p) (col i p) = ⊤) (n : ℕ) :
    i.val < n → n ≤ 8 → accK E i p n = ⊥ := by
  induction n with
  | zero => intro h; exact absurd h (Nat.not_lt_zero _)
  | succ n ih =>
    intro hlt hle
    have h8 : n < 8 := by omega
    rw [accK_succ E i p n h8]
    unfold stepK
    by_cases hi : i.val = n
    · have hin : i = ⟨n, h8⟩ := Fin.ext hi
      rw [if_pos hin, ← hin, diagTile_self, he]
      exact EReal.sub_top _
    · have hne : i ≠ ⟨n, h8⟩ := fun h => hi (congrArg Fin.val h)
      rw [if_neg hne, ih (by omega) (by omega), EReal.bot_add]

/-! ### The positive pair -/

/-- The masked sum has one nonzero term: the other index with the row's label. -/
private theorem posR_eq_of (r c₀ : Fin 8192) (hne : r ≠ c₀) (hmod : c₀.val % 4096 = r.val % 4096) :
    posR E r = E r c₀ := by
  unfold posR
  rw [Finset.sum_eq_single c₀]
  · rw [if_pos ⟨hmod, hne⟩, if_neg hne]
  · intro c _ hc
    rw [if_neg]
    rintro ⟨h1, h2⟩
    apply hc
    apply Fin.ext
    have h3 : r.val ≠ c.val := fun h => h2 (Fin.ext h)
    have h4 : r.val ≠ c₀.val := fun h => hne (Fin.ext h)
    have := c.isLt
    have := c₀.isLt
    have := r.isLt
    omega
  · intro h
    exact absurd (Finset.mem_univ _) h

/-- Both sides' positive pair is the entry of row `r` at its partner, an index other than `r`. -/
private theorem pos_pair (hsym : ∀ r c, E r c = E c r) (r : Fin 8192) :
    ∃ c, r ≠ c ∧ posK E r = E r c ∧ posR E r = E r c := by
  by_cases hr : r.val < 4096
  · have hlo : lo r = r := Fin.ext (by simp only [lo]; omega)
    have hne : r ≠ hi r := by
      intro h
      have := congrArg Fin.val h
      simp only [hi] at this
      omega
    refine ⟨hi r, hne, ?_, posR_eq_of E r (hi r) hne (by simp only [hi]; omega)⟩
    unfold posK
    rw [hlo]
  · have hhi : hi r = r := Fin.ext (by simp only [hi]; have := r.isLt; omega)
    have hne : r ≠ lo r := by
      intro h
      have := congrArg Fin.val h
      simp only [lo] at this
      omega
    refine ⟨lo r, hne, ?_, posR_eq_of E r (lo r) hne (by simp only [lo]; omega)⟩
    unfold posK
    rw [hhi]
    exact hsym _ _

end Row

theorem term_eq (E : Fin 8192 → Fin 8192 → EReal) (hnn : ∀ r c, 0 ≤ E r c) (hsym : ∀ r c, E r c = E c r)
    (hrow : ∀ r, E r r ≠ ⊤ ∨ (E r r = ⊤ ∧ ∀ c, E r c = 0 ∨ E r c = ⊤)) (r : Fin 8192) :
    termK E r = termR E r := by
  obtain ⟨i, p, rfl⟩ : ∃ i p, r = col i p := ⟨tileOf r, inTile r, (col_tileOf_inTile r).symm⟩
  obtain ⟨c, hc, hK, hR⟩ := pos_pair E hsym (col i p)
  have hden : denK E (col i p) = accK E i p 8 := by
    unfold denK
    rw [tileOf_col, inTile_col]
  unfold termK termR
  rw [hden, hK, hR]
  rcases hrow (col i p) with he | ⟨he, h01⟩
  · rw [accK_eight_of_ne_top E hnn i p he, denR_tiles]
  · rw [accK_of_top E i p he 8 i.isLt le_rfl, div_bot, log_zero']
    rcases h01 c with h0 | ht
    · rw [h0, log_div_zero]
    · have hd : denR E (col i p) = ⊤ := by
        unfold denR
        refine sum_eq_top _ (fun c' => ?_) c (by rw [if_neg hc, ht])
        split_ifs
        · exact le_rfl
        · exact hnn _ _
      rw [hd, div_top, log_zero']

end Cert.SimLoss

end
-- ==== Proof.FiniteInputs.lean ====
/-
  The precondition read back: if the "every input is finite" predicate is all ones on two arrays of extended reals,
  every entry of each array is a real number.

  The predicate is the conjunction of two all-reductions of `|x| < +∞`; an all-reduction is one exactly when every
  element is one; `|x| < +∞` for an extended real `x` excludes `⊤` and `⊥` (whose absolute value is `⊤`), which
  leaves the reals.
-/
import proofs.«412751_j31542239822525_3_alg».proof.Proof.Gen.Pre_finite_inputs
import Idealize.ShloMosaic.Lib.ReduceAll
import Idealize.ShloMosaic.PureOps.Ideal

noncomputable section

namespace Cert.SimLoss

open Idealize.ShloMosaic

/-- The scalar shape has exactly one index: a function out of the empty set of axes. -/
private instance scalarIdxSubsingleton : Subsingleton Cert.Pre_finite_inputs.S_.Idx :=
  ⟨fun _ _ => funext fun d => d.elim0⟩

/-- An extended real whose absolute value `max x (-x)` lies strictly below `⊤` is a real number: at `⊤` the maximum is
    `⊤` through its first argument, at `⊥` through its second (`-⊥ = ⊤`), and `⊤ < ⊤` is false. -/
private theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One element of the printed comparison: `|x| < +∞` coming out as the one-bit word 1 says `x` is a real. The bit
    pattern 0x7F800000 (exponent all ones, mantissa zero, sign clear) denotes `⊤`. -/
private theorem exists_real_of_cmp (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  have hlt : max x (-x) < (⊤ : EReal) := by
    have h' : Ideal.cmp .olt (max x (-x)) (Ideal.ofBits .f32 0x7F800000#32) = 1#1 := h
    rw [htop] at h'
    by_contra hn
    simp [Ideal.cmp, hn] at h'
  exact exists_real_of_abs_lt_top x hlt

theorem real_of_finite (a b : FVec Ideal Cert.Pre_finite_inputs.S4096x256 .f32)
    (h : Cert.Pre_finite_inputs.fn (F := Ideal) a b = fun _ => 1#1) :
    (∀ i, ∃ x : ℝ, a i = (x : EReal)) ∧ (∀ i, ∃ x : ℝ, b i = (x : EReal)) := by
  have h0 := congrFun h (fun d => d.elim0)
  dsimp only [Cert.Pre_finite_inputs.fn] at h0
  -- the final `and` of two one-bit words is 1 only when both are
  obtain ⟨ha, hb⟩ := IntOp.andi_eq_one.1 h0
  -- each all-reduction being 1 puts a 1 at every element of the compared array; read that element
  refine ⟨fun i => ?_, fun i => ?_⟩
  · exact exists_real_of_cmp (a i) (Host.reduce_andi_all _ _ _ _ _ ha i)
  · exact exists_real_of_cmp (b i) (Host.reduce_andi_all _ _ _ _ _ hb i)

end Cert.SimLoss

end
-- ==== Proof.Bridge.lean ====
/-
  The two programs' results are one extended real.

  Both results are the mean, negated, of a vector of per-row terms, so it is enough that the two vectors agree row by
  row. The tiled program's matrix is `EK` of its two staged arrays, which are the normalised array times `2` and the
  normalised array: that is `ER` of the normalised array, the direct program's matrix. Under the precondition every
  input entry is real, so every normalised row is a real row with a nonzero entry or the all-`⊥` row of a zero input
  row; for such rows the matrix has the shape under which the two per-row terms agree.
-/
import proofs.«412751_j31542239822525_3_alg».proof.Proof.KernelFinal
import proofs.«412751_j31542239822525_3_alg».proof.Proof.RefValue
import proofs.«412751_j31542239822525_3_alg».proof.Proof.LossRows
import proofs.«412751_j31542239822525_3_alg».proof.Proof.LossAlgebra
import proofs.«412751_j31542239822525_3_alg».proof.Proof.FiniteInputs

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.SimLoss

variable (m : (ℓ : Loc nD τ sig) → Buf (Elt Ideal) ℓ)

/-- The two argument arrays, as the direct program's stages take them. -/
abbrev argA (c : Dev nD) : Cert.SimLoss.Ref.Arr := m ((c : Thread nD τ).loc main_arg0)
abbrev argB (c : Dev nD) : Cert.SimLoss.Ref.Arr := m ((c : Thread nD τ).loc main_arg1)

/-- Under the precondition every normalised row has the shape `RowOk`. -/
theorem rows_ok (c : Dev nD)
    (hpre : Cert.Pre_finite_inputs.fn (F := Ideal) (m ((c : Thread nD τ).loc main_arg0)) (m ((c : Thread nD τ).loc main_arg1)) = fun _ => 1#1)
    (r : Fin 8192) : RowOk (Cert.SimLoss.Ref.znOf (argA m c) (argB m c) r) := by
  obtain ⟨ha, hb⟩ := real_of_finite _ _ hpre
  rw [Cert.SimLoss.Ref.znOf_eq]
  have hx : ∀ k : Fin 256, ∃ x : ℝ, Cert.SimLoss.Ref.zOf (argA m c) (argB m c) r k = (x : EReal) := by
    intro k
    unfold Cert.SimLoss.Ref.zOf
    split
    · exact ha _
    · exact hb _
  choose x hx using hx
  have e : Cert.SimLoss.Ref.zOf (argA m c) (argB m c) r = fun k => (x k : EReal) := funext hx
  rw [e]
  exact rowOk_normRow x

/-- The tiled program's matrix is the direct program's. -/
theorem Emat_eq (c : Dev nD) : Cert.KernelIdeal.Body.Emat m c = ER (Cert.SimLoss.Ref.znOf (argA m c) (argB m c)) := by
  show EK (Cert.KernelIdeal.Host.Lof m c) (Cert.KernelIdeal.Host.Rof m c) = _
  rw [Cert.KernelIdeal.Host.Lof_eq, Cert.KernelIdeal.Host.Rof_eq]
  exact EK_eq_ER _

/-- The two vectors of per-row terms agree. -/
theorem terms_eq (c : Dev nD)
    (hpre : Cert.Pre_finite_inputs.fn (F := Ideal) (m ((c : Thread nD τ).loc main_arg0)) (m ((c : Thread nD τ).loc main_arg1)) = fun _ => 1#1) :
    Cert.ReferenceIdeal.Read.val_main_v28 (F := Ideal) (argA m c) (argB m c)
      = Cert.KernelIdeal.Host.logRatio m c (Cert.KernelIdeal.Body.denCol m c) := by
  funext j
  obtain ⟨r, rfl⟩ : ∃ r : Fin 8192, j = ix1 r := ⟨j 0, eq_ix1 j⟩
  rw [Cert.SimLoss.Ref.log_ratio_apply]
  show _ = Ideal.log (Ideal.div (posK (EK (Cert.KernelIdeal.Host.Lof m c) (Cert.KernelIdeal.Host.Rof m c)) r)
    (denK (Cert.KernelIdeal.Body.Emat m c) r))
  have hE : EK (Cert.KernelIdeal.Host.Lof m c) (Cert.KernelIdeal.Host.Rof m c) = ER (Cert.SimLoss.Ref.znOf (argA m c) (argB m c)) := Emat_eq m c
  rw [hE, Emat_eq m c]
  exact (term_eq _ (ER_nonneg _) (ER_symm _) (ER_row _ (rows_ok m c hpre)) r).symm

/-- The direct program's result term is the tiled program's. -/
theorem loss_eq (c : Dev nD)
    (hpre : Cert.Pre_finite_inputs.fn (F := Ideal) (m ((c : Thread nD τ).loc main_arg0)) (m ((c : Thread nD τ).loc main_arg1)) = fun _ => 1#1) :
    Cert.ReferenceIdeal.Read.val_main_v31 (F := Ideal) (argA m c) (argB m c)
      = Cert.KernelIdeal.Host.lossOf (Cert.KernelIdeal.Host.logRatio m c (Cert.KernelIdeal.Body.denCol m c)) := by
  rw [← terms_eq m c hpre]
  rfl

end Cert.Bridge

end
-- ==== Proof.lean ====
/-
  The certificate: a tiled contrastive-loss kernel against its direct reference, over the extended reals.

  Both programs stack the two batches into 8192 rows, divide each row by its norm, and return the mean over rows of
  `-log (pos / den)`, where `den` is a row's sum of `exp (2 · cosine similarity)` over every OTHER row and `pos` the
  entry of the row's partner in the other batch. The reference forms the whole 8192 × 8192 matrix and masks it; the
  kernel walks it in 1024 × 1024 tiles, carrying a running row sum and subtracting the diagonal entry on the one tile
  that holds it. Over the reals those are the same number. Over the extended reals a zero input row normalises to
  `⊥`s; the two denominators then differ (`⊥` against `0` or `⊤`), but both per-row terms are `log` of `0` or `⊥`,
  that is `⊥` — so the results agree on every finite input (Proof/LossAlgebra.lean, Proof/LossRows.lean).

  The three frames are the generated frame runs; nothing was rewritten by the idealization; the value claim is the
  kernel's run read back (Proof/KernelFinal.lean) against the reference's generated run (Proof/Bridge.lean).
-/
import proofs.«412751_j31542239822525_3_alg».proof.Defs
import proofs.«412751_j31542239822525_3_alg».proof.Proof.Gen.Kernel
import proofs.«412751_j31542239822525_3_alg».proof.Proof.Gen.Kernel.Frame
import proofs.«412751_j31542239822525_3_alg».proof.Proof.Gen.KernelIdeal
import proofs.«412751_j31542239822525_3_alg».proof.Proof.Gen.KernelIdeal.Frame
import proofs.«412751_j31542239822525_3_alg».proof.Proof.Gen.ReferenceIdeal
import proofs.«412751_j31542239822525_3_alg».proof.Proof.Gen.ReferenceIdeal.Run
import proofs.«412751_j31542239822525_3_alg».proof.Proof.Gen.ReferenceIdeal.Read
import proofs.«412751_j31542239822525_3_alg».proof.Proof.Gen.Pre_finite_inputs
import proofs.«412751_j31542239822525_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the tiled program's loss term. -/
theorem algebraic : Cert.algebraic_KernelIdeal_ReferenceIdeal := by
  intro m ρ m' ρ' hpre hagree
  refine ⟨fun c => Cert.KernelIdeal.Host.lossOf (Cert.KernelIdeal.Host.logRatio m c (Cert.KernelIdeal.Body.denCol m c)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2]
  exact Cert.Bridge.loss_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
